-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part2 {F : FTy → Type} [FloatOps F] (main_arg7 : FVec F S4096x1 .f32) (main_arg8 : FVec F S4096x1 .f32) (main_v33 : IVec S_ 1) : IVec S_ 1 :=
  let main_v34 : FVec F S4096x1 .f32 := Host.absf main_arg7
  let main_cst_12 : FVec F S_ .f32 := constant S_ .f32 0x7F800000#32
  let main_v35 : FVec F S4096x1 .f32 := broadcastInDim S4096x1 ![] bcast_S_S4096x1 main_cst_12
  let main_v36 : IVec S4096x1 1 := cmpf .olt main_v34 main_v35
  let main_c_13 : IVec S_ 1 := constantI S_ 1 1#1
  let main_v37 : IVec S_ 1 := (fun x v => Host.reduce IntOp.andi x v reducesTo_S4096x1_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  main_v43

def fn_part1 {F : FTy → Type} [FloatOps F] (main_arg4 : FVec F S4096x4096 .f32) (main_arg5 : FVec F S64x64 .f32) (main_arg6 : FVec F S64x64 .f32) (main_arg7 : FVec F S4096x1 .f32) (main_arg8 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S4096x64 .f32) (main_arg1 : FVec F S4096x4096 .f32) (main_arg2 : FVec F S4096x4096 .f32) (main_arg3 : FVec F S4096x4096 .f32) (main_arg4 : FVec F S4096x4096 .f32) (main_arg5 : FVec F S64x64 .f32) (main_arg6 : FVec F S64x64 .f32) (main_arg7 : FVec F S4096x1 .f32) (main_arg8 : FVec F S4096x1 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S1x4096 : Shape := ⟨2, ![1, 4096]⟩
abbrev S2x4096x64 : Shape := ⟨3, ![2, 4096, 64]⟩
abbrev S256x4096 : Shape := ⟨2, ![256, 4096]⟩
abbrev S2x256x64 : Shape := ⟨3, ![2, 256, 64]⟩
abbrev S64x4096 : Shape := ⟨2, ![64, 4096]⟩
abbrev S64x256 : Shape := ⟨2, ![64, 256]⟩
abbrev S1x256 : Shape := ⟨2, ![1, 256]⟩
abbrev S256x64 : Shape := ⟨2, ![256, 64]⟩
abbrev S1x256x64 : Shape := ⟨3, ![1, 256, 64]⟩

abbrev nBuf : Space → Nat
  | .hbm => 12
  | .vmem => 19
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S64x64, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S1x4096, .f32⟩
  | .hbm, ⟨11, _⟩ => ⟨S2x4096x64, .f32⟩
  | .local _ .vmem, ⟨0, _⟩ => ⟨S4096x64, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S64x64, .f32⟩
  | .local _ .vmem, ⟨10, _⟩ => ⟨S64x64, .f32⟩
  | .local _ .vmem, ⟨11, _⟩ => ⟨S1x4096, .f32⟩
  | .local _ .vmem, ⟨12, _⟩ => ⟨S1x4096, .f32⟩
  | .local _ .vmem, ⟨13, _⟩ => ⟨S2x256x64, .f32⟩
  | .local _ .vmem, ⟨14, _⟩ => ⟨S2x256x64, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_8 : Index := 0#32
  let arg1 : BitVec 32 := BitVec.ofNat 32 (i 1).val
  let c256_i32 : BitVec 32 := 256#32
  let v14 : BitVec 32 := Scalar.muli arg1 c256_i32
  let v15 : Index := Scalar.indexCast v14
  ![0, v15.toNat]
def k0_off2 (i : grid0.Coords) : Fin 2 → Nat :=
  let c0_10 : Index := 0#32
  let arg1 : BitVec 32 := BitVec.ofNat 32 (i 1).val
  let c256_i32_9 : BitVec 32 := 256#32
  let v20 : BitVec 32 := Scalar.muli arg1 c256_i32_9
  let v21 : Index := Scalar.indexCast v20
  ![0, v21.toNat]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c15_i32 : BitVec 32 := 15#32
  let v2 : BitVec 32 := Scalar.select v1 arg1 c15_i32
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c15_i32 : BitVec 32 := 15#32
  let v2 : BitVec 32 := Scalar.select v1 arg1 c15_i32
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c15_i32 : BitVec 32 := 15#32
  let v2 : BitVec 32 := Scalar.select v1 arg1 c15_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c15_i32 : BitVec 32 := 15#32
  let v2 : BitVec 32 := Scalar.select v1 arg1 c15_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4096x1_S1x4096 : S4096x1.ShapeCasts S1x4096
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S256x4096_S256x4096_0_0 : ∀ a, (![0, 0] : Fin 2 → Nat) a + S256x4096.size a ≤ S256x4096.size a
  h_S256x4096 : 0 < S256x4096.numel
  h_S1x256 : 0 < S1x256.numel
  shapeCasts_S1x256_S1x256 : S1x256.ShapeCasts S1x256
  broadcasts_S1x256_S64x256 : S1x256.Broadcasts S64x256
  h_S64x256 : 0 < S64x256.numel
  shapeCasts_S64x256_S64x256 : S64x256.ShapeCasts S64x256
  transposes_S64x256_p1_0_S256x64 : S64x256.Transposes [1, 0] S256x64
  inb_S2x256x64_S1x256x64_0_0_0 : ∀ a, (![0, 0, 0] : Fin 3 → Nat) a + S1x256x64.size a ≤ S2x256x64.size a
  h_S1x256x64 : 0 < S1x256x64.numel
  shapeCasts_S1x256x64_S256x64 : S1x256x64.ShapeCasts S256x64
  shapeCasts_S256x64_S1x256x64 : S256x64.ShapeCasts S1x256x64
  inb_S2x256x64_S1x256x64_1_0_0 : ∀ a, (![1, 0, 0] : Fin 3 → Nat) a + S1x256x64.size a ≤ S2x256x64.size a
  dot_S64x64_S4096x64_S64x4096_0_1_1_0_n_n_wf : DotDims.WF S64x64 S4096x64 S64x4096 [0] [1] [1] [0] [] []
  dot_S64x4096_S256x4096_S64x256_1_1_0_0_n_n_wf : DotDims.WF S64x4096 S256x4096 S64x256 [1] [1] [0] [0] [] []
  hrank0 : 0 < grid0.rank
  k0_off1_inb : ∀ i : grid0.Coords, ∀ (k0_h2 : k0_cond2 i = 1#1), ∀ a, (k0_off1 i) a + S1x256.size a ≤ S1x4096.size a
  k0_off2_inb : ∀ i : grid0.Coords, ∀ (k0_h2 : k0_cond2 i = 1#1), ∀ a, (k0_off2 i) a + S64x256.size a ≤ S64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x256x64.size a ≤ S2x4096x64.size a
  hwx0_9 : ∀ i : grid0.Coords, EltTy.bits .f32 = 32 ∨ (Rect.block (s := S2x4096x64) S2x256x64.size (cc0_transform_9 i) (hinb0_9 i)).WholeWords (EltTy.packing .f32)

variable [Facts₀]

def dot_S64x64_S4096x64_S64x4096_0_1_1_0_n_n : DotDims S64x64 S4096x64 S64x4096 where
  lhsContracting := [0]
  rhsContracting := [1]
  lhsNonContracting := [1]
  rhsNonContracting := [0]
  lhsBatch := []
  rhsBatch := []
  wf := dot_S64x64_S4096x64_S64x4096_0_1_1_0_n_n_wf
def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2x256x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S1x4096x64 : Shape := ⟨3, ![1, 4096, 64]⟩
abbrev S2x4096x64 : Shape := ⟨3, ![2, 4096, 64]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S64x64, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x4096x64, .f32⟩
  | .hbm, ⟨20, _⟩ => ⟨S1x4096x64, .f32⟩
  | .hbm, ⟨21, _⟩ => ⟨S2x4096x64, .f32⟩
  | .hbm, ⟨22, _⟩ => ⟨S_, .f32⟩
  | .hbm, ⟨23, _⟩ => ⟨S2x4096x64, .f32⟩
  | .hbm, ⟨24, _⟩ => ⟨S2x4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096x1_S4096x64_0_1 : S4096x1.BroadcastsInDim S4096x64 (![0, 1] : Fin 2 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  bcast_S_S2x4096x64 : S_.BroadcastsInDim S2x4096x64 (![] : Fin 0 → Fin S2x4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Phases.lean ====
/-
  The grid of the one launch and its three kinds of point.

  The launch runs over 2 × 16 points, numbered 0 … 31 row-major: the sixteen ANALYSIS points 0 … 15 (first grid coordinate 0)
  and the sixteen SYNTHESIS points 16 … 31 (first coordinate 1). The very FIRST point also projects the features through the
  two weight matrices. Each condition the body branches on is a word computed from the grid coordinates; here each is
  decided, once, over the thirty-two points, together with the column offset at which an analysis point stores its slice,
  the points at which the result window is idle and those at which it is written back.
-/
import proofs.«109995_g53661321397056_cont_9to1_m_18_12_alg».proof.Proof.Gen.KernelIdeal.Frame
import proofs.«109995_g53661321397056_cont_9to1_m_18_12_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- The first branch's condition: both grid coordinates are zero. -/
abbrev firstPt (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem firstPt_iff : ∀ t : Fin cfg0.N, firstPt (grid0.coords t) ↔ t.val = 0 :=
  (by decide +kernel : ∀ t : Fin grid0.N, firstPt (grid0.coords t) ↔ t.val = 0)

/-- The second branch's condition: the first grid coordinate is zero (an analysis point). -/
abbrev analysisPt (i : grid0.Coords) : Prop := k0_cond2 i = 1#1
/-- It holds at points 0 … 15. -/
theorem analysisPt_iff : ∀ t : Fin cfg0.N, analysisPt (grid0.coords t) ↔ t.val < 16 :=
  (by decide +kernel : ∀ t : Fin grid0.N, analysisPt (grid0.coords t) ↔ t.val < 16)

/-- The third branch's condition: the first grid coordinate is one (a synthesis point). -/
abbrev synthesisPt (i : grid0.Coords) : Prop := k0_cond3 i = 1#1
/-- It holds at points 16 … 31. -/
theorem synthesisPt_iff : ∀ t : Fin cfg0.N, synthesisPt (grid0.coords t) ↔ 16 ≤ t.val :=
  (by decide +kernel : ∀ t : Fin grid0.N, synthesisPt (grid0.coords t) ↔ 16 ≤ t.val)

/-! ## Where an analysis point stores -/

/-- The column at which point `t` stores its 256-column slice of the two carried arrays: 256 times the second grid coordinate. -/
theorem storeCol_eq : ∀ t : Fin cfg0.N, k0_off2 (grid0.coords t) 1 = 256 * (t.val % 16) :=
  (by decide +kernel : ∀ t : Fin grid0.N, k0_off2 (grid0.coords t) 1 = 256 * (t.val % 16))
/-- The same column is where it reads its slice of the diagonal kernels. -/
theorem kernelCol_eq : ∀ t : Fin cfg0.N, k0_off1 (grid0.coords t) 1 = 256 * (t.val % 16) :=
  (by decide +kernel : ∀ t : Fin grid0.N, k0_off1 (grid0.coords t) 1 = 256 * (t.val % 16))
/-- A slice store starts at row 0. -/
theorem storeOff_eq (i : grid0.Coords) : k0_off2 i = ![0, k0_off2 i 1] :=
  funext fun a => match a with | ⟨0, _⟩ => rfl | ⟨1, _⟩ => rfl
theorem kernelOff_eq (i : grid0.Coords) : k0_off1 i = ![0, k0_off1 i 1] :=
  funext fun a => match a with | ⟨0, _⟩ => rfl | ⟨1, _⟩ => rfl

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The result window is idle at the analysis points, -/
theorem idleOut_analysis : ∀ t : Fin cfg0.N, t.val < 16 → cfg0.idle 9 (grid0.coords t) = true :=
  (by decide +kernel : ∀ t : Fin grid0.N, t.val < 16 → cfg0.idle 9 (grid0.coords t) = true)
/-- none of which writes it back; -/
theorem keepOut_analysis : ∀ t : Fin cfg0.N, t.val < 16 → (cfg0.win 9).flush t = false :=
  (by decide +kernel : ∀ t : Fin grid0.N, t.val < 16 → win0_9.flush t = false)
/-- it is stored into at every synthesis point, -/
theorem liveOut_synthesis : ∀ t : Fin cfg0.N, 16 ≤ t.val → cfg0.idle 9 (grid0.coords t) = false :=
  (by decide +kernel : ∀ t : Fin grid0.N, 16 ≤ t.val → cfg0.idle 9 (grid0.coords t) = false)
/-- each of which writes its block back. -/
theorem flushOut_synthesis : ∀ t : Fin cfg0.N, 16 ≤ t.val → (cfg0.win 9).flush t = true :=
  (by decide +kernel : ∀ t : Fin grid0.N, 16 ≤ t.val → win0_9.flush t = true)

/-! ## The memrefs the body is called with -/

/-- Each window's current staging memref at point `t`, as the pipeline passes it, and its wholeness. -/
abbrev ms0 (t : Fin cfg0.N) : Memref sig .tc .vmem S4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x4096 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x4096 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x256x64 .f32 := win0_9.stage (cfg0.slots t 9)
abbrev hs9 (t : Fin cfg0.N) : (ms9 t).IsWhole := hstage0_9 ((cfg0.slots t 9).cast nbuf0_9)
/-- The four carried arrays: the projected features of the two scales, then their scaled wavelet coefficients. -/
abbrev featM0 : Memref sig .tc .vmem S64x4096 .f32 := Memref.whole cc0_scratch0
abbrev featM1 : Memref sig .tc .vmem S64x4096 .f32 := Memref.whole cc0_scratch1
abbrev coefM0 : Memref sig .tc .vmem S64x4096 .f32 := Memref.whole cc0_scratch2
abbrev coefM1 : Memref sig .tc .vmem S64x4096 .f32 := Memref.whole cc0_scratch3

/-- What the launch hands the region besides the windows: the four carried arrays, each owned at some contents, and the
    generator register at some state. -/
theorem regionRest_eq (c : Dev nD) :
    (Pipeline.ΦA spec0 c : sProp 𝕄)
      = iprop(iprop((∃ d, owns (c : Thread nD τ) featM0 fullShare d) ∗ (∃ d, owns (c : Thread nD τ) featM1 fullShare d) ∗ (∃ d, owns (c : Thread nD τ) coefM0 fullShare d) ∗ (∃ d, owns (c : Thread nD τ) coefM1 fullShare d)) ∗ (∃ r, prngReg c r)) := by
  unfold Pipeline.ΦA; rw [scopedRest0_eq]; simp only [featM0, featM1, coefM0, coefM1, owns_whole]; try rfl

end Cert.KernelIdeal.Gen

end
-- ==== Proof.Slices.lean ====
/-
  A carried array filled one slice of 256 columns at a time.

  Each analysis point stores a block of 256 columns of each of the two coefficient arrays and touches no other column.
  After the points 0 … n the columns below 256·(n+1) hold their final values, whatever the array held before the launch,
  and after point 15 the whole array does.
-/
import proofs.«109995_g53661321397056_cont_9to1_m_18_12_alg».proof.Proof.Phases
import Idealize.ShloMosaic.Lib.WritesUnit
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- What a store of the 256 columns from column `o` on leaves: those columns hold the payload, every other column what it held. -/
def SliceStored (o : ℕ) (pay : S64x256.Idx → Elt F .f32) (old new : Vec F S64x4096 .f32) : Prop :=
  (∀ (y : S64x4096.Idx) (x : S64x256.Idx), (y 0).val = (x 0).val → (y 1).val = o + (x 1).val → new y = pay x)
  ∧ (∀ y : S64x4096.Idx, ((y 1).val < o ∨ o + 256 ≤ (y 1).val) → new y = old y)

/-- One store through the unit-stride rectangle of all 64 rows and the 256 columns from `o`, into a whole buffer read at `old`. -/
theorem sliceStored_of_writes (M : Memref sig .tc .vmem S64x4096 .f32) (hM : M.IsWhole) (old : Vec F S64x4096 .f32)
    {off : Fin 2 → ℕ} (inb : ∀ a, off a + S64x256.size a ≤ S64x4096.size a) (pay : S64x256.Idx → Elt F .f32)
    (o : ℕ) (hoff : off = ![0, o]) :
    SliceStored o pay old (M.view.read (Elt F) (M.view.writes (Elt F) (hM.unread old)
      [(⟨Rect.unit (s := S64x4096) off S64x256.size inb, pay⟩ : View.Piece (Elt F) S64x4096 .f32)])) := by
  constructor
  · intro y x h0 h1
    exact View.read_writes_cons_unit_of_mem M.view _ inb pay [] y x hoff (fun a => match a with
      | ⟨0, _⟩ => by show (y 0).val = 0 + (x 0).val; omega
      | ⟨1, _⟩ => by show (y 1).val = o + (x 1).val; exact h1)
  · intro y h
    rw [View.read_writes_cons_unit_of_not_mem M.view _ inb pay [] y hoff (1 : Fin 2)
      (by show (y 1).val < o ∨ o + 256 ≤ (y 1).val; exact h)]
    rw [View.writes_nil, hM.read_unread]

/-- The 256 entries of a diagonal kernel (held as one row of 4096) that an analysis point reads: those of its own columns. -/
abbrev kernelCols (i : grid0.Coords) (h : analysisPt i) (kr : Vec F S1x4096 .f32) : Vec F S1x256 .f32 :=
  View.ld kr (Rect.unit (s := S1x4096) (k0_off1 i) S1x256.size (k0_off1_inb i h))

/-- A carried array after the analysis point at grid coordinates `i` has stored `pay` into its slice of it. -/
def sliceWritten (M : Memref sig .tc .vmem S64x4096 .f32) (hM : M.IsWhole) (i : grid0.Coords) (h : analysisPt i)
    (pay : S64x256.Idx → Elt F .f32) (old : Vec F S64x4096 .f32) : Vec F S64x4096 .f32 :=
  M.view.read (Elt F) (M.view.writes (Elt F) (hM.unread old)
    [(⟨Rect.unit (s := S64x4096) (k0_off2 i) S64x256.size (k0_off2_inb i h), pay⟩ : View.Piece (Elt F) S64x4096 .f32)])

theorem sliceWritten_spec (M : Memref sig .tc .vmem S64x4096 .f32) (hM : M.IsWhole) (i : grid0.Coords) (h : analysisPt i)
    (pay : S64x256.Idx → Elt F .f32) (old : Vec F S64x4096 .f32) :
    SliceStored (k0_off2 i 1) pay old (sliceWritten M hM i h pay old) :=
  sliceStored_of_writes M hM old (k0_off2_inb i h) pay (k0_off2 i 1) (storeOff_eq i)

/-- What a synthesis point stores into the result window's block, later store first: scale 1's 256 × 64 block of positive parts
    into slab 1, scale 0's into slab 0, each from a complete coefficient array and the point's block of a synthesis basis. -/
def synthPieces (c0 c1 : Vec F S64x4096 .f32) (p0 p1 : Vec F S256x4096 .f32) : List (View.Piece (Elt F) S2x256x64 .f32) :=
  [⟨Rect.unit (s := S2x256x64) ![1, 0, 0] S1x256x64.size inb_S2x256x64_S1x256x64_1_0_0, k0_pay6 c1 p1⟩,
   ⟨Rect.unit (s := S2x256x64) ![0, 0, 0] S1x256x64.size inb_S2x256x64_S1x256x64_0_0_0, k0_pay5 c0 p0⟩]

/-- The two slabs cover the block. -/
theorem synthPieces_cover (c0 c1 : Vec F S64x4096 .f32) (p0 p1 : Vec F S256x4096 .f32) (y : S2x256x64.Idx) :
    ∃ pc ∈ synthPieces c0 c1 p0 p1, y ∈ pc.1.set :=
  View.cover_of_tiledL (synthPieces c0 c1 p0 p1) S1x256x64.size (by sl_kernel_rfl) y

/-- The columns below 256·(n+1) of `s` hold `Y`. -/
def FilledTo (n : ℕ) (s Y : Vec F S64x4096 .f32) : Prop :=
  ∀ y : S64x4096.Idx, (y 1).val < 256 * (n + 1) → s y = Y y

/-- The first slice. -/
theorem FilledTo.first {pay : S64x256.Idx → Elt F .f32} {old new Y : Vec F S64x4096 .f32}
    (h : SliceStored 0 pay old new)
    (hY : ∀ (y : S64x4096.Idx) (x : S64x256.Idx), (y 0).val = (x 0).val → (y 1).val = 0 + (x 1).val → Y y = pay x) :
    FilledTo 0 new Y := by
  intro y hy
  have hlt : (y 1).val < 256 := by omega
  have e0 : (y 0).val = (ix2 (n0 := 64) (n1 := 256) (y 0) ⟨(y 1).val, hlt⟩ 0).val := rfl
  have e1 : (y 1).val = 0 + (ix2 (n0 := 64) (n1 := 256) (y 0) ⟨(y 1).val, hlt⟩ 1).val := (Nat.zero_add _).symm
  exact (h.1 y _ e0 e1).trans (hY y _ e0 e1).symm

/-- One more slice. -/
theorem FilledTo.step {n : ℕ} {pay : S64x256.Idx → Elt F .f32} {old new Y : Vec F S64x4096 .f32}
    (hprev : FilledTo n old Y) (h : SliceStored (256 * (n + 1)) pay old new)
    (hY : ∀ (y : S64x4096.Idx) (x : S64x256.Idx), (y 0).val = (x 0).val → (y 1).val = 256 * (n + 1) + (x 1).val → Y y = pay x) :
    FilledTo (n + 1) new Y := by
  intro y hy
  by_cases hlow : (y 1).val < 256 * (n + 1)
  · exact (h.2 y (Or.inl hlow)).trans (hprev y hlow)
  · have hlt : (y 1).val - 256 * (n + 1) < 256 := by omega
    have e0 : (y 0).val = (ix2 (n0 := 64) (n1 := 256) (y 0) ⟨(y 1).val - 256 * (n + 1), hlt⟩ 0).val := rfl
    have e1 : (y 1).val = 256 * (n + 1) + (ix2 (n0 := 64) (n1 := 256) (y 0) ⟨(y 1).val - 256 * (n + 1), hlt⟩ 1).val := by
      show (y 1).val = 256 * (n + 1) + ((y 1).val - 256 * (n + 1)); omega
    exact (h.1 y _ e0 e1).trans (hY y _ e0 e1).symm

/-- After the last slice the array is `Y`; -/
theorem FilledTo.full {n : ℕ} {s Y : Vec F S64x4096 .f32} (h : FilledTo n s Y) (hn : 15 ≤ n) : s = Y :=
  funext fun y => h y (by have := idx2_lt1 (n0 := 64) (n1 := 4096) y; omega)

/-- and it stays so. -/
theorem FilledTo.refl (n : ℕ) (Y : Vec F S64x4096 .f32) : FilledTo n Y Y := fun _ _ => rfl

end Cert.KernelIdeal.Gen

end
-- ==== Proof.Data.lean ====
/-
  What the launch carries from point to point, and what it leaves in each window.

  Point 0 projects the node features through the two weight matrices into two feature-major arrays, which every later
  analysis point reads. Analysis point q (0 ≤ q < 16) stores columns 256·q … 256·q+255 of the two coefficient arrays: the
  point's block of an analysis basis applied to the projected features, each column scaled by its entry of the diagonal
  kernel. After point 15 both coefficient arrays are complete, and each synthesis point applies its block of a synthesis
  basis to them, takes the positive part and stores the two scales' 256 × 64 blocks into the result window, which is then
  written back. Here these contents are named, as functions of the blocks the windows hold, for any float instance.
-/
import proofs.«109995_g53661321397056_cont_9to1_m_18_12_alg».proof.Proof.Slices

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The windows' blocks at their literal types -/

abbrev xBlk (c : Dev nD) (t : Fin cfg0.N) : Vec F S4096x64 .f32 := iblk m c 0 t
abbrev pinvBlk0 (c : Dev nD) (t : Fin cfg0.N) : Vec F S256x4096 .f32 := iblk m c 1 t
abbrev pinvBlk1 (c : Dev nD) (t : Fin cfg0.N) : Vec F S256x4096 .f32 := iblk m c 2 t
abbrev phiBlk0 (c : Dev nD) (t : Fin cfg0.N) : Vec F S256x4096 .f32 := iblk m c 3 t
abbrev phiBlk1 (c : Dev nD) (t : Fin cfg0.N) : Vec F S256x4096 .f32 := iblk m c 4 t
abbrev wBlk0 (c : Dev nD) (t : Fin cfg0.N) : Vec F S64x64 .f32 := iblk m c 5 t
abbrev wBlk1 (c : Dev nD) (t : Fin cfg0.N) : Vec F S64x64 .f32 := iblk m c 6 t
abbrev kRow0 (c : Dev nD) (t : Fin cfg0.N) : Vec F S1x4096 .f32 := iblk m c 7 t
abbrev kRow1 (c : Dev nD) (t : Fin cfg0.N) : Vec F S1x4096 .f32 := iblk m c 8 t

/-! ## The carried arrays -/

theorem gridN : cfg0.N = 32 := N_0

/-- Grid point number `q`. -/
def pt (q : ℕ) (hq : q < 32) : Fin cfg0.N := ⟨q, lt_of_lt_of_eq hq gridN.symm⟩

@[simp] theorem pt_val (q : ℕ) (hq : q < 32) : (pt q hq).val = q := rfl

/-- The projected features of scale 0, feature-major: what point 0 stores. -/
def feat0 (c : Dev nD) : Vec F S64x4096 .f32 := k0_pay1 (wBlk0 m c (pt 0 (by omega))) (xBlk m c (pt 0 (by omega)))
/-- The projected features of scale 1. -/
def feat1 (c : Dev nD) : Vec F S64x4096 .f32 := k0_pay2 (wBlk1 m c (pt 0 (by omega))) (xBlk m c (pt 0 (by omega)))

/-- The 256 columns of scale 0's coefficients that analysis point `t` stores. -/
def coefSlice0 (c : Dev nD) (t : Fin cfg0.N) (h : analysisPt (grid0.coords t)) : S64x256.Idx → Elt F .f32 :=
  k0_pay3 (feat0 m c) (pinvBlk0 m c t) (kernelCols (grid0.coords t) h (kRow0 m c t))
/-- The 256 columns of scale 1's coefficients that analysis point `t` stores. -/
def coefSlice1 (c : Dev nD) (t : Fin cfg0.N) (h : analysisPt (grid0.coords t)) : S64x256.Idx → Elt F .f32 :=
  k0_pay4 (feat1 m c) (pinvBlk1 m c t) (kernelCols (grid0.coords t) h (kRow1 m c t))

theorem colPt_lt (y : S64x4096.Idx) : (y 1).val / 256 < 32 := by
  have := idx2_lt1 (n0 := 64) (n1 := 4096) y; omega
theorem colPt_analysis (y : S64x4096.Idx) : analysisPt (grid0.coords (pt ((y 1).val / 256) (colPt_lt y))) :=
  (analysisPt_iff _).mpr (by have := idx2_lt1 (n0 := 64) (n1 := 4096) y; show (y 1).val / 256 < 16; omega)

/-- Scale 0's scaled wavelet coefficients, feature-major, complete: column `n` is column `n % 256` of the slice analysis point `n / 256` stores. -/
def coef0 (c : Dev nD) : Vec F S64x4096 .f32 := fun y =>
  coefSlice0 m c (pt ((y 1).val / 256) (colPt_lt y)) (colPt_analysis y)
    (ix2 (n0 := 64) (n1 := 256) (y 0) ⟨(y 1).val % 256, Nat.mod_lt _ (by norm_num)⟩)
/-- Scale 1's. -/
def coef1 (c : Dev nD) : Vec F S64x4096 .f32 := fun y =>
  coefSlice1 m c (pt ((y 1).val / 256) (colPt_lt y)) (colPt_analysis y)
    (ix2 (n0 := 64) (n1 := 256) (y 0) ⟨(y 1).val % 256, Nat.mod_lt _ (by norm_num)⟩)

/-- Under analysis point `t`'s slice, the complete array is what `t` stores. -/
theorem coef0_slice (c : Dev nD) (t : Fin cfg0.N) (h : analysisPt (grid0.coords t)) (y : S64x4096.Idx) (x : S64x256.Idx)
    (e0 : (y 0).val = (x 0).val) (e1 : (y 1).val = 256 * t.val + (x 1).val) : coef0 m c y = coefSlice0 m c t h x := by
  have hx1 : (x 1).val < 256 := idx2_lt1 (n0 := 64) (n1 := 256) x
  have ht : pt ((y 1).val / 256) (colPt_lt y) = t := Fin.ext (by show (y 1).val / 256 = t.val; omega)
  have hx : ix2 (n0 := 64) (n1 := 256) (y 0) ⟨(y 1).val % 256, Nat.mod_lt _ (by norm_num)⟩ = x :=
    funext fun a => match a with
      | ⟨0, _⟩ => Fin.ext e0
      | ⟨1, _⟩ => Fin.ext (by show (y 1).val % 256 = (x 1).val; omega)
  unfold coef0
  have key : ∀ (t' : Fin cfg0.N) (h' : analysisPt (grid0.coords t')), t' = t → coefSlice0 m c t' h' x = coefSlice0 m c t h x := by
    intro t' h' e; subst e; rfl
  rw [hx]; exact key _ _ ht

theorem coef1_slice (c : Dev nD) (t : Fin cfg0.N) (h : analysisPt (grid0.coords t)) (y : S64x4096.Idx) (x : S64x256.Idx)
    (e0 : (y 0).val = (x 0).val) (e1 : (y 1).val = 256 * t.val + (x 1).val) : coef1 m c y = coefSlice1 m c t h x := by
  have hx1 : (x 1).val < 256 := idx2_lt1 (n0 := 64) (n1 := 256) x
  have ht : pt ((y 1).val / 256) (colPt_lt y) = t := Fin.ext (by show (y 1).val / 256 = t.val; omega)
  have hx : ix2 (n0 := 64) (n1 := 256) (y 0) ⟨(y 1).val % 256, Nat.mod_lt _ (by norm_num)⟩ = x :=
    funext fun a => match a with
      | ⟨0, _⟩ => Fin.ext e0
      | ⟨1, _⟩ => Fin.ext (by show (y 1).val % 256 = (x 1).val; omega)
  unfold coef1
  have key : ∀ (t' : Fin cfg0.N) (h' : analysisPt (grid0.coords t')), t' = t → coefSlice1 m c t' h' x = coefSlice1 m c t h x := by
    intro t' h' e; subst e; rfl
  rw [hx]; exact key _ _ ht

/-! ## The result window's block -/

/-- What synthesis point `t` leaves in the result window: the two scales' blocks of positive parts, from the complete coefficient
    arrays and the point's blocks of the two synthesis bases. -/
def outBlk (c : Dev nD) (t : Fin cfg0.N) : Vec F S2x256x64 .f32 :=
  View.canon (synthPieces (coef0 m c) (coef1 m c) (phiBlk0 m c t) (phiBlk1 m c t))

/-! ## The invariant between points -/

/-- Before point 0 the four carried arrays hold anything; after point `n` the projected features are in place and the
    coefficient arrays are complete below column 256·(n+1). -/
def carried (c : Dev nD) : (n : ℕ) → n ≤ cfg0.N → sProp 𝕄
  | 0, _ => Pipeline.ΦA spec0 c
  | n + 1, _ => iprop(∃ s0 s1 : Vec F S64x4096 .f32, ⌜FilledTo n s0 (coef0 m c) ∧ FilledTo n s1 (coef1 m c)⌝ ∗
      iprop(owns (c : Thread nD τ) featM0 fullShare (feat0 m c) ∗ owns (c : Thread nD τ) featM1 fullShare (feat1 m c)
        ∗ owns (c : Thread nD τ) coefM0 fullShare s0 ∗ owns (c : Thread nD τ) coefM1 fullShare s1) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(∃ s0 s1 : Vec F S64x4096 .f32, ⌜FilledTo n s0 (coef0 m c) ∧ FilledTo n s1 (coef1 m c)⌝ ∗
      iprop(owns (c : Thread nD τ) featM0 fullShare (feat0 m c) ∗ owns (c : Thread nD τ) featM1 fullShare (feat1 m c)
        ∗ owns (c : Thread nD τ) coefM0 fullShare s0 ∗ owns (c : Thread nD τ) coefM1 fullShare s1) ∗ (∃ r, prngReg c r)) := rfl

theorem carried_pos (c : Dev nD) (n : ℕ) (h : n ≤ cfg0.N) (hz : n ≠ 0) :
    carried m c n h = iprop(∃ s0 s1 : Vec F S64x4096 .f32, ⌜FilledTo (n - 1) s0 (coef0 m c) ∧ FilledTo (n - 1) s1 (coef1 m c)⌝ ∗
      iprop(owns (c : Thread nD τ) featM0 fullShare (feat0 m c) ∗ owns (c : Thread nD τ) featM1 fullShare (feat1 m c)
        ∗ owns (c : Thread nD τ) coefM0 fullShare s0 ∗ owns (c : Thread nD τ) coefM1 fullShare s1) ∗ (∃ r, prngReg c r)) := by
  cases n with
  | zero => exact absurd rfl hz
  | succ n => rfl

/-! ## The pipeline's proof data -/

/-- The arrays as the region finds them; after the body each input's buffer at its block and the result window's at the
    synthesis block; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlk m c t := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d

end Cert.KernelIdeal.Gen

end
-- ==== Proof.RunFirst.lean ====
/-
  The body at the first point: it projects the node features through the two weight matrices into the two feature arrays (each
  stored whole), then does an analysis point's work from them: one 256-column slice into each coefficient array.
-/
import proofs.«109995_g53661321397056_cont_9to1_m_18_12_alg».proof.Proof.Slices

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs holding the named contents (the four carried arrays holding anything) the body runs; it hands back what it read
    unchanged, the feature arrays holding the projections, and the coefficient arrays with the point's slices written. -/
theorem run_first (c : Dev nD) (i : grid0.Coords) (arg2 : Memref sig .tc .vmem S4096x64 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x256x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole)
    (h0 : firstPt i) (h1 : analysisPt i) (h2 : ¬synthesisPt i)
    (x0 : Vec F S4096x64 .f32) (x1 x2 : Vec F S256x4096 .f32) (x5 x6 : Vec F S64x64 .f32) (x7 x8 : Vec F S1x4096 .f32) (d0 d1 c0 c1 : Vec F S64x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg12 fullShare d0 ∗ owns (c : Thread nD τ) arg13 fullShare d1 ∗ owns (c : Thread nD τ) arg14 fullShare c0 ∗ owns (c : Thread nD τ) arg15 fullShare c1
        ∗ (iprop(owns (c : Thread nD τ) arg2 fullShare x0 ∗ owns (c : Thread nD τ) arg3 fullShare x1 ∗ owns (c : Thread nD τ) arg4 fullShare x2 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg12 fullShare (k0_pay1 x5 x0) ∗ owns (c : Thread nD τ) arg13 fullShare (k0_pay2 x6 x0)
            ∗ owns (c : Thread nD τ) arg14 fullShare (sliceWritten arg14 harg14 i h1 (k0_pay3 (k0_pay1 x5 x0) x1 (kernelCols i h1 x7)) c0)
            ∗ owns (c : Thread nD τ) arg15 fullShare (sliceWritten arg15 harg15 i h1 (k0_pay4 (k0_pay2 x6 x0) x2 (kernelCols i h1 x8)) c1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  have hz : (![0, 0] : Fin 2 → ℕ) = fun _ => 0 := funext fun a => match a with | ⟨0, _⟩ => rfl | ⟨1, _⟩ => rfl
  simp only [cc0__body_eq_skeleton]; unfold cc0__body_skel
  unfold owns
  iintro ⟨⟨%g0, %hg0, H0⟩, ⟨%g1, %hg1, H1⟩, ⟨%g2, %hg2, H2⟩, ⟨%g5, %hg5, H5⟩, ⟨%g6, %hg6, H6⟩, ⟨%g7, %hg7, H7⟩, ⟨%g8, %hg8, H8⟩, ⟨%gs0, %hgs0, HS0⟩, ⟨%gs1, %hgs1, HS1⟩, ⟨%gs2, %hgs2, HS2⟩, ⟨%gs3, %hgs3, HS3⟩, Hk⟩
  obtain rfl := harg2.eq_unread hg0; obtain rfl := harg3.eq_unread hg1; obtain rfl := harg4.eq_unread hg2; obtain rfl := harg7.eq_unread hg5; obtain rfl := harg8.eq_unread hg6; obtain rfl := harg9.eq_unread hg7; obtain rfl := harg10.eq_unread hg8
  obtain rfl := harg12.eq_unread hgs0; obtain rfl := harg13.eq_unread hgs1; obtain rfl := harg14.eq_unread hgs2; obtain rfl := harg15.eq_unread hgs3
  sl_exec (disch := first | exact h0 | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro; sl_unfold_run_names
    refine (View.read_writes_eq_canon _ _ _ (fun y => ⟨_, List.mem_singleton_self _, View.mem_set_unit_zero hz inb_S64x4096_S64x4096_0_0 y⟩)).trans ?_
    rw [View.canon_unit_zero hz]
    simp only [View.readAt_eq_ld, harg7.read_unread, harg2.read_unread, View.ld_unit_zero (S := S64x64) hz, View.ld_unit_zero (S := S4096x64) hz]
  isplitl [HS1]
  · iexists _; isplitr; swap; · iexact HS1
    ipureintro; sl_unfold_run_names
    refine (View.read_writes_eq_canon _ _ _ (fun y => ⟨_, List.mem_singleton_self _, View.mem_set_unit_zero hz inb_S64x4096_S64x4096_0_0 y⟩)).trans ?_
    rw [View.canon_unit_zero hz]
    simp only [View.readAt_eq_ld, harg8.read_unread, harg2.read_unread, View.ld_unit_zero (S := S64x64) hz, View.ld_unit_zero (S := S4096x64) hz]
  isplitl [HS2]
  · iexists _; isplitr; swap; · iexact HS2
    ipureintro; unfold sliceWritten; sl_unfold_run_names
    simp only [View.readCov_unit_zero (S := S64x4096) _ hz, View.readAt_eq_ld, harg7.read_unread, harg2.read_unread, harg3.read_unread, harg9.read_unread, View.ld_unit_zero (S := S64x64) hz, View.ld_unit_zero (S := S4096x64) hz, View.ld_unit_zero (S := S256x4096) hz]
  iexists _; isplitr; swap; · iexact HS3
  ipureintro; unfold sliceWritten; sl_unfold_run_names
  simp only [View.readCov_unit_zero (S := S64x4096) _ hz, View.readAt_eq_ld, harg8.read_unread, harg2.read_unread, harg4.read_unread, harg10.read_unread, View.ld_unit_zero (S := S64x64) hz, View.ld_unit_zero (S := S4096x64) hz, View.ld_unit_zero (S := S256x4096) hz]

end Cert.KernelIdeal.Gen

end
-- ==== Proof.RunAnalysis.lean ====
/-
  The body at an analysis point that is not the first: it reads the projected features of both scales, the point's block of each
  analysis basis and its 256 entries of each diagonal kernel, and stores one 256-column slice into each coefficient array.
-/
import proofs.«109995_g53661321397056_cont_9to1_m_18_12_alg».proof.Proof.Slices

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs holding the named contents the body runs; it hands back what it read unchanged and the two coefficient
    arrays with the point's slices written. -/
theorem run_analysis (c : Dev nD) (i : grid0.Coords) (arg2 : Memref sig .tc .vmem S4096x64 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x256x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole)
    (h0 : ¬firstPt i) (h1 : analysisPt i) (h2 : ¬synthesisPt i)
    (x1 x2 : Vec F S256x4096 .f32) (x7 x8 : Vec F S1x4096 .f32) (f0 f1 c0 c1 : Vec F S64x4096 .f32)
    (E : Set ℕ) (K : PUnit → sProp 𝕄) :
    iprop(owns (c : Thread nD τ) arg3 fullShare x1 ∗ owns (c : Thread nD τ) arg4 fullShare x2 ∗ owns (c : Thread nD τ) arg9 fullShare x7 ∗ owns (c : Thread nD τ) arg10 fullShare x8
        ∗ owns (c : Thread nD τ) arg12 fullShare f0 ∗ owns (c : Thread nD τ) arg13 fullShare f1 ∗ owns (c : Thread nD τ) arg14 fullShare c0 ∗ owns (c : Thread nD τ) arg15 fullShare c1
        ∗ (iprop(owns (c : Thread nD τ) arg3 fullShare x1 ∗ owns (c : Thread nD τ) arg4 fullShare x2 ∗ owns (c : Thread nD τ) arg9 fullShare x7 ∗ owns (c : Thread nD τ) arg10 fullShare x8
            ∗ owns (c : Thread nD τ) arg12 fullShare f0 ∗ owns (c : Thread nD τ) arg13 fullShare f1
            ∗ owns (c : Thread nD τ) arg14 fullShare (sliceWritten arg14 harg14 i h1 (k0_pay3 f0 x1 (kernelCols i h1 x7)) c0)
            ∗ owns (c : Thread nD τ) arg15 fullShare (sliceWritten arg15 harg15 i h1 (k0_pay4 f1 x2 (kernelCols i h1 x8)) c1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  have hz : (![0, 0] : Fin 2 → ℕ) = fun _ => 0 := funext fun a => match a with | ⟨0, _⟩ => rfl | ⟨1, _⟩ => rfl
  simp only [cc0__body_eq_skeleton]; unfold cc0__body_skel
  unfold owns
  iintro ⟨⟨%g1, %hg1, H1⟩, ⟨%g2, %hg2, H2⟩, ⟨%g7, %hg7, H7⟩, ⟨%g8, %hg8, H8⟩, ⟨%gs0, %hgs0, HS0⟩, ⟨%gs1, %hgs1, HS1⟩, ⟨%gs2, %hgs2, HS2⟩, ⟨%gs3, %hgs3, HS3⟩, Hk⟩
  obtain rfl := harg3.eq_unread hg1; obtain rfl := harg4.eq_unread hg2; obtain rfl := harg9.eq_unread hg7; obtain rfl := harg10.eq_unread hg8
  obtain rfl := harg12.eq_unread hgs0; obtain rfl := harg13.eq_unread hgs1; obtain rfl := harg14.eq_unread hgs2; obtain rfl := harg15.eq_unread hgs3
  sl_exec (disch := first | exact h0 | exact h1 | exact h2)
  sl_step
  iapply Hk
  isplitl [H1]
  · iexists _; isplitr; · ipureintro; exact harg3.read_unread _
    iexact H1
  isplitl [H2]
  · iexists _; isplitr; · ipureintro; exact harg4.read_unread _
    iexact H2
  isplitl [H7]
  · iexists _; isplitr; · ipureintro; exact harg9.read_unread _
    iexact H7
  isplitl [H8]
  · iexists _; isplitr; · ipureintro; exact harg10.read_unread _
    iexact H8
  isplitl [HS0]
  · iexists _; isplitr; · ipureintro; exact harg12.read_unread _
    iexact HS0
  isplitl [HS1]
  · iexists _; isplitr; · ipureintro; exact harg13.read_unread _
    iexact HS1
  isplitl [HS2]
  · iexists _; isplitr; swap; · iexact HS2
    ipureintro; unfold sliceWritten
    simp only [View.readAt_eq_ld, harg12.read_unread, harg3.read_unread, harg9.read_unread, View.ld_unit_zero (S := S64x4096) hz, View.ld_unit_zero (S := S256x4096) hz]
  iexists _; isplitr; swap; · iexact HS3
  ipureintro; unfold sliceWritten
  simp only [View.readAt_eq_ld, harg13.read_unread, harg4.read_unread, harg10.read_unread, View.ld_unit_zero (S := S64x4096) hz, View.ld_unit_zero (S := S256x4096) hz]

end Cert.KernelIdeal.Gen

end
-- ==== Proof.RunSynthesis.lean ====
/-
  The body at a synthesis point: it reads the two complete coefficient arrays and the point's block of each synthesis basis, and
  stores each scale's 256 × 64 block of positive parts into its slab of the result window's block.
-/
import proofs.«109995_g53661321397056_cont_9to1_m_18_12_alg».proof.Proof.Slices

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs holding the named contents the body runs; it hands back what it read unchanged and the result window's buffer
    holding the two slabs, whatever it held before. -/
theorem run_synthesis (c : Dev nD) (i : grid0.Coords) (arg2 : Memref sig .tc .vmem S4096x64 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x256x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole)
    (h0 : ¬firstPt i) (h1 : ¬analysisPt i) (h2 : synthesisPt i)
    (x3 x4 : Vec F S256x4096 .f32) (c0 c1 : Vec F S64x4096 .f32) (d9 : Vec F S2x256x64 .f32)
    (E : Set ℕ) (K : PUnit → sProp 𝕄) :
    iprop(owns (c : Thread nD τ) arg5 fullShare x3 ∗ owns (c : Thread nD τ) arg6 fullShare x4 ∗ owns (c : Thread nD τ) arg11 fullShare d9 ∗ owns (c : Thread nD τ) arg14 fullShare c0 ∗ owns (c : Thread nD τ) arg15 fullShare c1
        ∗ (iprop(owns (c : Thread nD τ) arg5 fullShare x3 ∗ owns (c : Thread nD τ) arg6 fullShare x4 ∗ owns (c : Thread nD τ) arg11 fullShare (View.canon (synthPieces c0 c1 x3 x4))
            ∗ owns (c : Thread nD τ) arg14 fullShare c0 ∗ owns (c : Thread nD τ) arg15 fullShare c1) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  have hz : (![0, 0] : Fin 2 → ℕ) = fun _ => 0 := funext fun a => match a with | ⟨0, _⟩ => rfl | ⟨1, _⟩ => rfl
  simp only [cc0__body_eq_skeleton]; unfold cc0__body_skel
  unfold owns
  iintro ⟨⟨%g3, %hg3, H3⟩, ⟨%g4, %hg4, H4⟩, ⟨%g9, %hg9, H9⟩, ⟨%gs2, %hgs2, HS2⟩, ⟨%gs3, %hgs3, HS3⟩, Hk⟩
  obtain rfl := harg5.eq_unread hg3; obtain rfl := harg6.eq_unread hg4; obtain rfl := harg11.eq_unread hg9
  obtain rfl := harg14.eq_unread hgs2; obtain rfl := harg15.eq_unread hgs3
  sl_exec (disch := first | exact h0 | exact h1 | exact h2)
  sl_step
  iapply Hk
  isplitl [H3]
  · iexists _; isplitr; · ipureintro; exact harg5.read_unread _
    iexact H3
  isplitl [H4]
  · iexists _; isplitr; · ipureintro; exact harg6.read_unread _
    iexact H4
  isplitl [H9]
  · iexists _; isplitr; swap; · iexact H9
    ipureintro
    simp only [View.readAt_eq_ld, harg14.read_unread, harg15.read_unread, harg5.read_unread, harg6.read_unread, View.ld_unit_zero (S := S64x4096) hz, View.ld_unit_zero (S := S256x4096) hz]
    exact View.read_writes_eq_canon arg11.view _ (synthPieces c0 c1 x3 x4) (synthPieces_cover c0 c1 x3 x4)
  isplitl [HS2]
  · iexists _; isplitr; · ipureintro; exact harg14.read_unread _
    iexact HS2
  iexists _; isplitr; · ipureintro; exact harg15.read_unread _
  iexact HS3

end Cert.KernelIdeal.Gen

end
-- ==== Proof.Body.lean ====
/-
  The body obligation of the launch, its run, and the frame.

  At every point the body finds each input window's buffer at its block and the carried arrays as the invariant says; which
  of its three branches run is decided by the point's number. At the first point it fills the two feature arrays and the first
  slices; at a later analysis point the next slices, from the feature arrays in place; at a synthesis point, the coefficient
  arrays being complete, the result window's block. The result window is idle at the analysis points and handed back untouched.
-/
import proofs.«109995_g53661321397056_cont_9to1_m_18_12_alg».proof.Proof.Data
import proofs.«109995_g53661321397056_cont_9to1_m_18_12_alg».proof.Proof.RunFirst
import proofs.«109995_g53661321397056_cont_9to1_m_18_12_alg».proof.Proof.RunAnalysis
import proofs.«109995_g53661321397056_cont_9to1_m_18_12_alg».proof.Proof.RunSynthesis

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The slice an analysis point stores starts at column 256 · (the point's number). -/
theorem storeCol_analysis (t : Fin cfg0.N) (h : t.val < 16) : k0_off2 (grid0.coords t) 1 = 256 * t.val :=
  (storeCol_eq t).trans (by omega)

/-- The projected features are what the first point stores. -/
theorem feat0_first (c : Dev nD) (t : Fin cfg0.N) (h : t.val = 0) : feat0 m c = k0_pay1 (wBlk0 m c t) (xBlk m c t) := by
  obtain rfl : t = pt 0 (by decide) := Fin.ext h
  rfl
theorem feat1_first (c : Dev nD) (t : Fin cfg0.N) (h : t.val = 0) : feat1 m c = k0_pay2 (wBlk1 m c t) (xBlk m c t) := by
  obtain rfl : t = pt 0 (by decide) := Fin.ext h
  rfl

set_option maxHeartbeats 4000000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = carried m c (t.val + 1) t.isLt from rfl, carried_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hN : t.val < 32 := lt_of_lt_of_eq t.isLt gridN
  by_cases hfirst : t.val = 0
  · -- the first point
    have hA : analysisPt (grid0.coords t) := (analysisPt_iff t).mpr (by omega)
    rw [Dat.leavesExact_idle _ 9 t (idleOut_analysis t (by omega)) (keepOut_analysis t (by omega))]
    rw [carried_castSucc m c t, carried_zero m c _ _ hfirst, regionRest_eq]
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) featM0 (Memref.isWhole_whole _) featM1 (Memref.isWhole_whole _) coefM0 (Memref.isWhole_whole _) coefM1 (Memref.isWhole_whole _) ((firstPt_iff t).mpr hfirst) hA (fun h => by have := (synthesisPt_iff t).mp h; omega) (xBlk m c t) (pinvBlk0 m c t) (pinvBlk1 m c t) (wBlk0 m c t) (wBlk1 m c t) (kRow0 m c t) (kRow1 m c t) e0 e1 e2 e3 Set.univ _)
    isplitl [H0]; · iexact H0
    isplitl [H1]; · iexact H1
    isplitl [H2]; · iexact H2
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H5, H6, H7, H8, HS0, HS1, HS2, HS3⟩
    have hcol : k0_off2 (grid0.coords t) 1 = 0 := (storeCol_analysis t (by omega)).trans (by omega)
    isplitl [HS0 HS1 HS2 HS3 Hg]
    · iexists _, _
      isplitr
      swap
      · isplitl [HS0 HS1 HS2 HS3]
        · isplitl [HS0]
          · rw [feat0_first m c t hfirst]; iexact HS0
          isplitl [HS1]
          · rw [feat1_first m c t hfirst]; iexact HS1
          isplitl [HS2]
          · iexact HS2
          iexact HS3
        iexact Hg
      · ipureintro
        rw [hfirst]
        refine ⟨FilledTo.first (by have := sliceWritten_spec coefM0 (Memref.isWhole_whole _) (grid0.coords t) hA (k0_pay3 (k0_pay1 (wBlk0 m c t) (xBlk m c t)) (pinvBlk0 m c t) (kernelCols (grid0.coords t) hA (kRow0 m c t))) e2; rwa [hcol] at this) ?_,
          FilledTo.first (by have := sliceWritten_spec coefM1 (Memref.isWhole_whole _) (grid0.coords t) hA (k0_pay4 (k0_pay2 (wBlk1 m c t) (xBlk m c t)) (pinvBlk1 m c t) (kernelCols (grid0.coords t) hA (kRow1 m c t))) e3; rwa [hcol] at this) ?_⟩
        · intro y x h0 h1
          refine (coef0_slice m c t hA y x h0 (by omega)).trans ?_
          unfold coefSlice0; rw [feat0_first m c t hfirst]
        · intro y x h0 h1
          refine (coef1_slice m c t hA y x h0 (by omega)).trans ?_
          unfold coefSlice1; rw [feat1_first m c t hfirst]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases hana : t.val < 16
    · -- a later analysis point
      have hA : analysisPt (grid0.coords t) := (analysisPt_iff t).mpr hana
      rw [Dat.leavesExact_idle _ 9 t (idleOut_analysis t hana) (keepOut_analysis t hana)]
      rw [carried_castSucc m c t, carried_pos m c _ _ hfirst]
      iintro ⟨⟨%s0, %s1, %hs, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      iapply (run_analysis c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) featM0 (Memref.isWhole_whole _) featM1 (Memref.isWhole_whole _) coefM0 (Memref.isWhole_whole _) coefM1 (Memref.isWhole_whole _) (fun h => hfirst ((firstPt_iff t).mp h)) hA (fun h => by have := (synthesisPt_iff t).mp h; omega) (pinvBlk0 m c t) (pinvBlk1 m c t) (kRow0 m c t) (kRow1 m c t) (feat0 m c) (feat1 m c) s0 s1 Set.univ _)
      isplitl [H1]; · iexact H1
      isplitl [H2]; · iexact H2
      isplitl [H7]; · iexact H7
      isplitl [H8]; · iexact H8
      isplitl [HS0]; · iexact HS0
      isplitl [HS1]; · iexact HS1
      isplitl [HS2]; · iexact HS2
      isplitl [HS3]; · iexact HS3
      iintro ⟨H1, H2, H7, H8, HS0, HS1, HS2, HS3⟩
      have hcol : k0_off2 (grid0.coords t) 1 = 256 * (t.val - 1 + 1) := (storeCol_analysis t hana).trans (by omega)
      have hstep : t.val - 1 + 1 = t.val := by omega
      isplitl [HS0 HS1 HS2 HS3 Hg]
      · iexists _, _
        isplitr
        swap
        · isplitl [HS0 HS1 HS2 HS3]
          · isplitl [HS0]; · iexact HS0
            isplitl [HS1]; · iexact HS1
            isplitl [HS2]; · iexact HS2
            iexact HS3
          iexact Hg
        · ipureintro
          refine ⟨hstep ▸ FilledTo.step hs.1 (by have := sliceWritten_spec coefM0 (Memref.isWhole_whole _) (grid0.coords t) hA (k0_pay3 (feat0 m c) (pinvBlk0 m c t) (kernelCols (grid0.coords t) hA (kRow0 m c t))) s0; rwa [hcol] at this) ?_,
            hstep ▸ FilledTo.step hs.2 (by have := sliceWritten_spec coefM1 (Memref.isWhole_whole _) (grid0.coords t) hA (k0_pay4 (feat1 m c) (pinvBlk1 m c t) (kernelCols (grid0.coords t) hA (kRow1 m c t))) s1; rwa [hcol] at this) ?_⟩
          · intro y x h0 h1
            exact coef0_slice m c t hA y x h0 (by omega)
          · intro y x h0 h1
            exact coef1_slice m c t hA y x h0 (by omega)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a synthesis point
      have hsyn : 16 ≤ t.val := by omega
      rw [show (dats m 0 c).leavesExact 9 t = owns (c : Thread nD τ) (ms9 t) fullShare ((dats m 0 c).after 9 t) from by
        unfold Dat.leavesExact; rw [liveOut_synthesis t hsyn], after9]
      rw [carried_castSucc m c t, carried_pos m c _ _ hfirst]
      iintro ⟨⟨%s0, %s1, %hs, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl : s0 = coef0 m c := hs.1.full (by omega)
      obtain rfl : s1 = coef1 m c := hs.2.full (by omega)
      iapply (run_synthesis c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) featM0 (Memref.isWhole_whole _) featM1 (Memref.isWhole_whole _) coefM0 (Memref.isWhole_whole _) coefM1 (Memref.isWhole_whole _) (fun h => hfirst ((firstPt_iff t).mp h)) (fun h => hana ((analysisPt_iff t).mp h)) ((synthesisPt_iff t).mpr hsyn) (phiBlk0 m c t) (phiBlk1 m c t) (coef0 m c) (coef1 m c) _ Set.univ _)
      isplitl [H3]; · iexact H3
      isplitl [H4]; · iexact H4
      isplitl [H9]; · iexact H9
      isplitl [HS2]; · iexact HS2
      isplitl [HS3]; · iexact HS3
      iintro ⟨H3, H4, H9, HS2, HS3⟩
      isplitl [HS0 HS1 HS2 HS3 Hg]
      · iexists _, _
        isplitr
        swap
        · isplitl [HS0 HS1 HS2 HS3]
          · isplitl [HS0]; · iexact HS0
            isplitl [HS1]; · iexact HS1
            isplitl [HS2]; · iexact HS2
            iexact HS3
          iexact Hg
        · ipureintro; exact ⟨FilledTo.refl _ _, FilledTo.refl _ _⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem carried_in (c : Dev nD) : Pipeline.ΦA spec0 c ⊢ (dats m 0 c).Φ 0 := by
  rw [show (dats m 0 c).Φ 0 = carried m c 0 (Nat.zero_le _) from rfl, carried_zero m c 0 _ rfl]

/-- After the last point the invariant gives the carried arrays back, their contents forgotten. -/
theorem carried_out (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := gridN; omega), regionRest_eq]
  iintro ⟨%s0, %s1, -, ⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates; every argument array ends unchanged and the result array holds what the
    synthesis points wrote back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Gen

end
-- ==== Proof.PayloadAt.lean ====
/-
  The kernel body's arithmetic read at an index, at the ideal values (floats are extended reals, every operation exact).

  Each stored value of the body is a pure term over the blocks the body loaded. Read at one index of the stored block:
  the two feature projections are matrix products contracting the weight's ROW index with the features' COLUMN index;
  a block of 256 analysis coefficients is the row vector of scales times the product of the projected features with a
  block of 256 basis rows, contracted over the 4096 nodes; a block of 256 synthesised nodes is the positive part of the
  same kind of product, transposed to node-major order under a leading unit axis.
-/
import proofs.«109995_g53661321397056_cont_9to1_m_18_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Wavelet
open Cert.KernelIdeal Cert.KernelIdeal.Gen Idealize.ShloMosaic Idealize.ShloMosaic.ValueIdx
open scoped BigOperators

/-! ## The projection product: W's rows against x's columns -/

/-- The left operand's row coordinate is the contraction position. -/
theorem lhs_proj_0 (i : S64x4096.Idx) (q : dot_S64x64_S4096x64_S64x4096_0_1_1_0_n_n.contr.Idx) :
    (dot_S64x64_S4096x64_S64x4096_0_1_1_0_n_n.lhsIdx i q 0).val = (q ⟨0, by decide⟩).val :=
  dot_S64x64_S4096x64_S64x4096_0_1_1_0_n_n.lhsIdx_val_of_single rfl i q
/-- The left operand's column coordinate is the result's row. -/
theorem lhs_proj_1 (i : S64x4096.Idx) (q : dot_S64x64_S4096x64_S64x4096_0_1_1_0_n_n.contr.Idx) :
    (dot_S64x64_S4096x64_S64x4096_0_1_1_0_n_n.lhsIdx i q 1).val = (i 0).val := by
  unfold DotDims.lhsIdx
  rw [dif_neg (show ¬(1 : Fin S64x64.rank) ∈ dot_S64x64_S4096x64_S64x4096_0_1_1_0_n_n.lhsBatch by decide), dif_pos (show (1 : Fin S64x64.rank) ∈ dot_S64x64_S4096x64_S64x4096_0_1_1_0_n_n.lhsNonContracting by decide)]
  rfl
/-- The right operand's row coordinate is the result's column. -/
theorem rhs_proj_0 (i : S64x4096.Idx) (q : dot_S64x64_S4096x64_S64x4096_0_1_1_0_n_n.contr.Idx) :
    (dot_S64x64_S4096x64_S64x4096_0_1_1_0_n_n.rhsIdx i q 0).val = (i 1).val := by
  unfold DotDims.rhsIdx
  rw [dif_neg (show ¬(0 : Fin S4096x64.rank) ∈ dot_S64x64_S4096x64_S64x4096_0_1_1_0_n_n.rhsBatch by decide), dif_pos (show (0 : Fin S4096x64.rank) ∈ dot_S64x64_S4096x64_S64x4096_0_1_1_0_n_n.rhsNonContracting by decide)]
  rfl
/-- The right operand's column coordinate is the contraction position. -/
theorem rhs_proj_1 (i : S64x4096.Idx) (q : dot_S64x64_S4096x64_S64x4096_0_1_1_0_n_n.contr.Idx) :
    (dot_S64x64_S4096x64_S64x4096_0_1_1_0_n_n.rhsIdx i q 1).val = (q ⟨0, by decide⟩).val :=
  dot_S64x64_S4096x64_S64x4096_0_1_1_0_n_n.rhsIdx_val_of_single rfl i q

/-- The projection product into a zero accumulator, at (d, n): the sum over j of W (j, d) · x (n, j). -/
theorem proj_matmul_apply (W : Vec Ideal S64x64 .f32) (x : Vec Ideal S4096x64 .f32) (d : Fin 64) (n : Fin 4096) :
    matmul (F := Ideal) (φ₁ := .f32) (φ₂ := .f32) dot_S64x64_S4096x64_S64x4096_0_1_1_0_n_n none W x (constant (F := Ideal) S64x4096 .f32 0x00000000#32) (ix2 d n)
      = ∑ j : Fin 64, W (ix2 j d) * x (ix2 n j) := by
  simp only [matmul]
  rw [Ideal.matmul_constant_zero_apply, ← Equiv.sum_comp (contrEquiv1 dot_S64x64_S4096x64_S64x4096_0_1_1_0_n_n 64 rfl rfl).symm]
  refine Finset.sum_congr rfl fun k _ => ?_
  have hk := contrEquiv1_symm_val dot_S64x64_S4096x64_S64x4096_0_1_1_0_n_n 64 rfl rfl k
  have el : dot_S64x64_S4096x64_S64x4096_0_1_1_0_n_n.lhsIdx (ix2 d n) ((contrEquiv1 dot_S64x64_S4096x64_S64x4096_0_1_1_0_n_n 64 rfl rfl).symm k) = ix2 k d := funext fun a => Fin.ext (by
    match a with
    | ⟨0, _⟩ => exact (lhs_proj_0 _ _).trans hk
    | ⟨1, _⟩ => exact lhs_proj_1 _ _)
  have er : dot_S64x64_S4096x64_S64x4096_0_1_1_0_n_n.rhsIdx (ix2 d n) ((contrEquiv1 dot_S64x64_S4096x64_S64x4096_0_1_1_0_n_n 64 rfl rfl).symm k) = ix2 n k := funext fun a => Fin.ext (by
    match a with
    | ⟨0, _⟩ => exact rhs_proj_0 _ _
    | ⟨1, _⟩ => exact (rhs_proj_1 _ _).trans hk)
  rw [el, er]

/-! ## The basis product: rows of the projected features against rows of a basis block -/

/-- The left operand's row coordinate is the result's row. -/
theorem lhs_basis_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
/-- The left operand's column coordinate is the contraction position. -/
theorem lhs_basis_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
/-- The right operand's row coordinate is the result's column. -/
theorem rhs_basis_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl
/-- The right operand's column coordinate is the contraction position. -/
theorem rhs_basis_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q

/-- The basis product into a zero accumulator, at (d, r): the sum over the nodes n of a (d, n) · b (r, n). -/
theorem basis_matmul_apply (a : Vec Ideal S64x4096 .f32) (b : Vec Ideal S256x4096 .f32) (d : Fin 64) (r : Fin 256) :
    matmul (F := Ideal) (φ₁ := .f32) (φ₂ := .f32) dot_S64x4096_S256x4096_S64x256_1_1_0_0_n_n none a b (constant (F := Ideal) S64x256 .f32 0x00000000#32) (ix2 d r)
      = ∑ n : Fin 4096, a (ix2 d n) * b (ix2 r n) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 d r) ((contrEquiv1 dot_S64x4096_S256x4096_S64x256_1_1_0_0_n_n 4096 rfl rfl).symm k) = ix2 d k := funext fun a => Fin.ext (by
    match a with
    | ⟨0, _⟩ => exact lhs_basis_0 _ _
    | ⟨1, _⟩ => exact (lhs_basis_1 _ _).trans hk)
  have er : dot_S64x4096_S256x4096_S64x256_1_1_0_0_n_n.rhsIdx (ix2 d r) ((contrEquiv1 dot_S64x4096_S256x4096_S64x256_1_1_0_0_n_n 4096 rfl rfl).symm k) = ix2 r k := funext fun a => Fin.ext (by
    match a with
    | ⟨0, _⟩ => exact rhs_basis_0 _ _
    | ⟨1, _⟩ => exact (rhs_basis_1 _ _).trans hk)
  rw [el, er]

/-! ## The stored values -/

/-- projecting the features: a matrix product contracting W's ROW index with x's COLUMN index into a zero accumulator -/
theorem pay1_apply (W : Vec Ideal S64x64 .f32) (x : Vec Ideal S4096x64 .f32) (d : Fin 64) (n : Fin 4096) :
    k0_pay1 (F := Ideal) W x (ix2 d n) = ∑ j : Fin 64, W (ix2 j d) * x (ix2 n j) := by
  unfold k0_pay1
  refine (congrFun (shapeCast_self _ shapeCasts_S64x4096_S64x4096) (ix2 d n)).trans ?_
  exact proj_matmul_apply W x d n

/-- the second projection is the same term -/
theorem pay2_apply (W : Vec Ideal S64x64 .f32) (x : Vec Ideal S4096x64 .f32) (d : Fin 64) (n : Fin 4096) :
    k0_pay2 (F := Ideal) W x (ix2 d n) = ∑ j : Fin 64, W (ix2 j d) * x (ix2 n j) :=
  pay1_apply W x d n

/-- one block of 256 analysis coefficients, scaled: the row vector kk broadcast over the 64 rows, times (xp contracted with pb over their column index) -/
theorem pay3_apply (xp : Vec Ideal S64x4096 .f32) (pb : Vec Ideal S256x4096 .f32) (kk : Vec Ideal S1x256 .f32) (d : Fin 64) (r : Fin 256) :
    k0_pay3 (F := Ideal) xp pb kk (ix2 d r) = kk (ix2 0 r) * ∑ n : Fin 4096, xp (ix2 d n) * pb (ix2 r n) := by
  unfold k0_pay3
  refine (congrFun (shapeCast_self _ shapeCasts_S64x256_S64x256) (ix2 d r)).trans ?_
  refine (mulf_apply _ _ (ix2 d r)).trans ?_
  refine congrArg₂ (· * ·) ?_ (basis_matmul_apply xp pb d r)
  refine (broadcastTo_1b_ab_apply _ broadcasts_S1x256_S64x256 d r).trans ?_
  exact congrFun (shapeCast_self kk shapeCasts_S1x256_S1x256) (ix2 (0 : Fin 1) r)

/-- the second block of coefficients is the same term -/
theorem pay4_apply (xp : Vec Ideal S64x4096 .f32) (pb : Vec Ideal S256x4096 .f32) (kk : Vec Ideal S1x256 .f32) (d : Fin 64) (r : Fin 256) :
    k0_pay4 (F := Ideal) xp pb kk (ix2 d r) = kk (ix2 0 r) * ∑ n : Fin 4096, xp (ix2 d n) * pb (ix2 r n) :=
  pay3_apply xp pb kk d r

/-- one block of 256 synthesised nodes: the positive part of (yt contracted with pb over their column index), transposed to node-major and given a leading unit axis -/
theorem pay5_apply (yt : Vec Ideal S64x4096 .f32) (pb : Vec Ideal S256x4096 .f32) (r : Fin 256) (d : Fin 64) :
    k0_pay5 (F := Ideal) yt pb (ix3 0 r d) = max (∑ n : Fin 4096, yt (ix2 d n) * pb (ix2 r n)) 0 := by
  unfold k0_pay5
  refine (shapeCast_ab_1ab_apply _ shapeCasts_S256x64_S1x256x64 (0 : Fin 1) r d).trans ?_
  refine (transpose_ix2_apply _ transposes_S64x256_p1_0_S256x64 r d).trans ?_
  refine (maximumf_apply _ _ (ix2 d r)).trans ?_
  refine congrArg₂ max (basis_matmul_apply yt pb d r) ?_
  exact Ideal.ofBits_zero_f32

/-- the second block of nodes is the same term -/
theorem pay6_apply (yt : Vec Ideal S64x4096 .f32) (pb : Vec Ideal S256x4096 .f32) (r : Fin 256) (d : Fin 64) :
    k0_pay6 (F := Ideal) yt pb (ix3 0 r d) = max (∑ n : Fin 4096, yt (ix2 d n) * pb (ix2 r n)) 0 :=
  pay5_apply yt pb r d

end Cert.KernelIdeal.Wavelet

end
-- ==== Proof.WaveletSpec.lean ====
/-
  The multi-scale wavelet convolution as one function of its nine argument arrays, over the extended reals.

  For each of the two scales (analysis basis `pinv`, synthesis basis `phi`, weights `W`, diagonal kernel `k`) the layer
  computes, for output feature `d` and node `r`,
      relu ( Σ_n  k[n] · ( Σ_n' ( Σ_j W[j,d] · x[n',j] ) · pinv[n,n'] ) · phi[r,n] ),
  and stacks the two scales along a new leading axis. Everything below is stated feature-major (the feature index first),
  which is the order in which the blocked program carries its intermediate arrays; the row-major program computes the same
  sums with the factors of each product exchanged.
-/
import Idealize.ShloMosaic.PureOps.Ideal
import Idealize.ShloMosaic.Lib.ValueIdx

noncomputable section

open scoped BigOperators

namespace Cert.Wavelet

open Idealize.ShloMosaic Idealize.ShloMosaic.ValueIdx

/-- A matrix of extended reals with `r` rows and `c` columns, indexed as the arrays of the programs are. -/
abbrev Mat (r c : ℕ) : Type := (⟨2, ![r, c]⟩ : Shape).Idx → EReal

/-- The weighted features, feature-major: entry `(d, n)` is output feature `d` of node `n`, `Σ_j W[j,d] · x[n,j]`. -/
def featT (W : Mat 64 64) (x : Mat 4096 64) (d : Fin 64) (n : Fin 4096) : EReal :=
  ∑ j : Fin 64, W (ix2 j d) * x (ix2 n j)

/-- Analysis: wavelet coefficient `r` of feature `d`, `Σ_n feat[d,n] · pinv[r,n]`. -/
def coefT (pinv : Mat 4096 4096) (W : Mat 64 64) (x : Mat 4096 64) (d : Fin 64) (r : Fin 4096) : EReal :=
  ∑ n : Fin 4096, featT W x d n * pinv (ix2 r n)

/-- The diagonal kernel applied to the coefficients: `k[r] · coef[d,r]`. -/
def scaledT (k : Mat 4096 1) (pinv : Mat 4096 4096) (W : Mat 64 64) (x : Mat 4096 64) (d : Fin 64) (r : Fin 4096) : EReal :=
  k (ix2 r 0) * coefT pinv W x d r

/-- Synthesis: node `r` of feature `d`, `Σ_n scaled[d,n] · phi[r,n]`. -/
def synthT (phi : Mat 4096 4096) (k : Mat 4096 1) (pinv : Mat 4096 4096) (W : Mat 64 64) (x : Mat 4096 64)
    (d : Fin 64) (r : Fin 4096) : EReal :=
  ∑ n : Fin 4096, scaledT k pinv W x d n * phi (ix2 r n)

/-- The layer's result: scale `s`, node `r`, feature `d` is the positive part of scale `s`'s synthesis. -/
def result (x : Mat 4096 64) (pinv0 phi0 pinv1 phi1 : Mat 4096 4096) (W0 W1 : Mat 64 64) (k0 k1 : Mat 4096 1) :
    (⟨3, ![2, 4096, 64]⟩ : Shape).Idx → EReal :=
  fun j => if (j 0).val = 0 then max (synthT phi0 k0 pinv0 W0 x (j 2) (j 1)) 0
           else max (synthT phi1 k1 pinv1 W1 x (j 2) (j 1)) 0

end Cert.Wavelet

end
-- ==== Proof.CarriedValues.lean ====
/-
  The carried arrays and the synthesis bases' blocks in terms of the argument arrays, over the extended reals.
-/
import proofs.«109995_g53661321397056_cont_9to1_m_18_12_alg».proof.Proof.Data
import proofs.«109995_g53661321397056_cont_9to1_m_18_12_alg».proof.Proof.PayloadAt
import proofs.«109995_g53661321397056_cont_9to1_m_18_12_alg».proof.Proof.WaveletSpec

set_option maxRecDepth 16384

noncomputable section

namespace Cert.KernelIdeal.Wavelet

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## The windows' block indices, decided over the thirty-two points -/

/-- The features' window holds the whole array at every point. -/
theorem x_index : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Analysis point `t` holds block `t` of scale 0's analysis basis. -/
theorem pinv0_index : ∀ t : Fin cfg0.N, t.val < 16 → win0_1.index t (0 : Fin 2) = t.val ∧ win0_1.index t (1 : Fin 2) = 0 :=
  (by decide +kernel : ∀ t : Fin grid0.N, t.val < 16 → win0_1.index t (0 : Fin 2) = t.val ∧ win0_1.index t (1 : Fin 2) = 0)
/-- Analysis point `t` holds block `t` of scale 1's analysis basis. -/
theorem pinv1_index : ∀ t : Fin cfg0.N, t.val < 16 → win0_2.index t (0 : Fin 2) = t.val ∧ win0_2.index t (1 : Fin 2) = 0 :=
  (by decide +kernel : ∀ t : Fin grid0.N, t.val < 16 → win0_2.index t (0 : Fin 2) = t.val ∧ win0_2.index t (1 : Fin 2) = 0)
/-- Synthesis point `t` holds block `t − 16` of scale 0's synthesis basis. -/
theorem phi0_index : ∀ t : Fin cfg0.N, 16 ≤ t.val → win0_3.index t (0 : Fin 2) = t.val - 16 ∧ win0_3.index t (1 : Fin 2) = 0 :=
  (by decide +kernel : ∀ t : Fin grid0.N, 16 ≤ t.val → win0_3.index t (0 : Fin 2) = t.val - 16 ∧ win0_3.index t (1 : Fin 2) = 0)
/-- Synthesis point `t` holds block `t − 16` of scale 1's synthesis basis. -/
theorem phi1_index : ∀ t : Fin cfg0.N, 16 ≤ t.val → win0_4.index t (0 : Fin 2) = t.val - 16 ∧ win0_4.index t (1 : Fin 2) = 0 :=
  (by decide +kernel : ∀ t : Fin grid0.N, 16 ≤ t.val → win0_4.index t (0 : Fin 2) = t.val - 16 ∧ win0_4.index t (1 : Fin 2) = 0)
/-- The weights' windows hold the whole matrices at every point. -/
theorem w0_index : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem w1_index : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- The diagonal kernels' windows hold the whole rows at every point. -/
theorem k0_index : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem k1_index : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## The synthesis bases' blocks -/

/-- Synthesis point `t` holds rows 256·(t−16) … of scale 0's synthesis basis. -/
theorem phiBlk0_apply (t : Fin cfg0.N) (ht : 16 ≤ t.val) (r : Fin 256) (n : Fin 4096) (hr : 256 * (t.val - 16) + r.val < 4096) :
    phiBlk0 (F := Ideal) m c t (ix2 r n)
      = (m ((c.tc : Thread nD τ).loc main_arg2)) (ix2 (n0 := 4096) (n1 := 4096) ⟨256 * (t.val - 16) + r.val, hr⟩ n) := by
  have hi := phi0_index t ht
  unfold phiBlk0 iblk
  rw [View.read_apply]
  show V m c main_arg2 _ = m (c.tc.loc main_arg2) _
  rw [V_main_arg2]
  congr 1
  funext a
  apply Fin.ext
  match a with
  | ⟨0, _⟩ => show win0_3.index t 0 * 256 + 1 * r.val = 256 * (t.val - 16) + r.val; rw [hi.1]; omega
  | ⟨1, _⟩ => show win0_3.index t 1 * 4096 + 1 * n.val = n.val; rw [hi.2]; omega

/-- Synthesis point `t` holds rows 256·(t−16) … of scale 1's synthesis basis. -/
theorem phiBlk1_apply (t : Fin cfg0.N) (ht : 16 ≤ t.val) (r : Fin 256) (n : Fin 4096) (hr : 256 * (t.val - 16) + r.val < 4096) :
    phiBlk1 (F := Ideal) m c t (ix2 r n)
      = (m ((c.tc : Thread nD τ).loc main_arg4)) (ix2 (n0 := 4096) (n1 := 4096) ⟨256 * (t.val - 16) + r.val, hr⟩ n) := by
  have hi := phi1_index t ht
  unfold phiBlk1 iblk
  rw [View.read_apply]
  show V m c main_arg4 _ = m (c.tc.loc main_arg4) _
  rw [V_main_arg4]
  congr 1
  funext a
  apply Fin.ext
  match a with
  | ⟨0, _⟩ => show win0_4.index t 0 * 256 + 1 * r.val = 256 * (t.val - 16) + r.val; rw [hi.1]; omega
  | ⟨1, _⟩ => show win0_4.index t 1 * 4096 + 1 * n.val = n.val; rw [hi.2]; omega

/-! ## The analysis bases' blocks -/

/-- Analysis point `t` holds rows 256·t … of scale 0's analysis basis. -/
theorem pinvBlk0_apply (t : Fin cfg0.N) (ht : t.val < 16) (r : Fin 256) (n : Fin 4096) (hr : 256 * t.val + r.val < 4096) :
    pinvBlk0 (F := Ideal) m c t (ix2 r n)
      = (m ((c.tc : Thread nD τ).loc main_arg1)) (ix2 (n0 := 4096) (n1 := 4096) ⟨256 * t.val + r.val, hr⟩ n) := by
  have hi := pinv0_index t ht
  unfold pinvBlk0 iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 4096 + 1 * n.val = n.val; rw [hi.2]; omega

/-- Analysis point `t` holds rows 256·t … of scale 1's analysis basis. -/
theorem pinvBlk1_apply (t : Fin cfg0.N) (ht : t.val < 16) (r : Fin 256) (n : Fin 4096) (hr : 256 * t.val + r.val < 4096) :
    pinvBlk1 (F := Ideal) m c t (ix2 r n)
      = (m ((c.tc : Thread nD τ).loc main_arg3)) (ix2 (n0 := 4096) (n1 := 4096) ⟨256 * t.val + r.val, hr⟩ n) := by
  have hi := pinv1_index t ht
  unfold pinvBlk1 iblk
  rw [View.read_apply]
  show V m c main_arg3 _ = m (c.tc.loc main_arg3) _
  rw [V_main_arg3]
  congr 1
  funext a
  apply Fin.ext
  match a with
  | ⟨0, _⟩ => show win0_2.index t 0 * 256 + 1 * r.val = 256 * t.val + r.val; rw [hi.1]; omega
  | ⟨1, _⟩ => show win0_2.index t 1 * 4096 + 1 * n.val = n.val; rw [hi.2]; omega

/-! ## The whole-array windows -/

/-- The features' window holds the features at every point. -/
theorem xBlk_apply (t : Fin cfg0.N) (n : Fin 4096) (j : Fin 64) :
    xBlk (F := Ideal) m c t (ix2 n j) = (m ((c.tc : Thread nD τ).loc main_arg0)) (ix2 n j) := by
  have hi := x_index t
  unfold xBlk iblk
  rw [View.read_apply]
  show V m c main_arg0 _ = m (c.tc.loc main_arg0) _
  rw [V_main_arg0]
  congr 1
  funext a
  apply Fin.ext
  match a with
  | ⟨0, _⟩ => show win0_0.index t 0 * 4096 + 1 * n.val = n.val; rw [hi.1]; omega
  | ⟨1, _⟩ => show win0_0.index t 1 * 64 + 1 * j.val = j.val; rw [hi.2]; omega

/-- Scale 0's weights' window holds the weights at every point. -/
theorem wBlk0_apply (t : Fin cfg0.N) (j : Fin 64) (d : Fin 64) :
    wBlk0 (F := Ideal) m c t (ix2 j d) = (m ((c.tc : Thread nD τ).loc main_arg5)) (ix2 j d) := by
  have hi := w0_index t
  unfold wBlk0 iblk
  rw [View.read_apply]
  show V m c main_arg5 _ = m (c.tc.loc main_arg5) _
  rw [V_main_arg5]
  congr 1
  funext a
  apply Fin.ext
  match a with
  | ⟨0, _⟩ => show win0_5.index t 0 * 64 + 1 * j.val = j.val; rw [hi.1]; omega
  | ⟨1, _⟩ => show win0_5.index t 1 * 64 + 1 * d.val = d.val; rw [hi.2]; omega

/-- Scale 1's weights' window holds the weights at every point. -/
theorem wBlk1_apply (t : Fin cfg0.N) (j : Fin 64) (d : Fin 64) :
    wBlk1 (F := Ideal) m c t (ix2 j d) = (m ((c.tc : Thread nD τ).loc main_arg6)) (ix2 j d) := by
  have hi := w1_index t
  unfold wBlk1 iblk
  rw [View.read_apply]
  show V m c main_arg6 _ = m (c.tc.loc main_arg6) _
  rw [V_main_arg6]
  congr 1
  funext a
  apply Fin.ext
  match a with
  | ⟨0, _⟩ => show win0_6.index t 0 * 64 + 1 * j.val = j.val; rw [hi.1]; omega
  | ⟨1, _⟩ => show win0_6.index t 1 * 64 + 1 * d.val = d.val; rw [hi.2]; omega

/-! ## The diagonal kernels: a column held as a row -/

/-- The row the region finds for scale 0's kernel is the argument column, recast. -/
theorem V_k0 : (V m c main_v0 : S1x4096.Idx → Elt Ideal .f32)
    = shapeCast S1x4096 (m ((c.tc : Thread nD τ).loc main_arg7) : S4096x1.Idx → Elt Ideal .f32) shapeCasts_S4096x1_S1x4096 := by
  dsimp only [Gen.V, Gen.hostOps0]; after_results; rfl

/-- The row the region finds for scale 1's kernel is the argument column, recast. -/
theorem V_k1 : (V m c main_v1 : S1x4096.Idx → Elt Ideal .f32)
    = shapeCast S1x4096 (m ((c.tc : Thread nD τ).loc main_arg8) : S4096x1.Idx → Elt Ideal .f32) shapeCasts_S4096x1_S1x4096 := by
  dsimp only [Gen.V, Gen.hostOps0]; after_results; rfl

/-- Scale 0's kernel row at column `n` is the argument column at row `n`. -/
theorem kRow0_apply (t : Fin cfg0.N) (n : Fin 4096) :
    kRow0 (F := Ideal) m c t (ix2 (0 : Fin 1) n) = (m ((c.tc : Thread nD τ).loc main_arg7)) (ix2 n (0 : Fin 1)) := by
  have hi := k0_index t
  unfold kRow0 iblk
  rw [View.read_apply]
  show V m c main_v0 _ = m (c.tc.loc main_arg7) _
  refine (congrFun (V_k0 m c) _).trans ?_
  refine shapeCast_apply (s := S4096x1) (t := S1x4096) _ _ _ (ix2 n (0 : Fin 1)) ?_
  rw [Shape.rowMajor_val_two (d := ![4096, 1]), Shape.rowMajor_val_two (d := ![1, 4096])]
  show n.val * 1 + 0 = (win0_7.index t 0 * 1 + 1 * 0) * 4096 + (win0_7.index t 1 * 4096 + 1 * n.val)
  rw [hi.1, hi.2]; omega

/-- Scale 1's kernel row at column `n` is the argument column at row `n`. -/
theorem kRow1_apply (t : Fin cfg0.N) (n : Fin 4096) :
    kRow1 (F := Ideal) m c t (ix2 (0 : Fin 1) n) = (m ((c.tc : Thread nD τ).loc main_arg8)) (ix2 n (0 : Fin 1)) := by
  have hi := k1_index t
  unfold kRow1 iblk
  rw [View.read_apply]
  show V m c main_v1 _ = m (c.tc.loc main_arg8) _
  refine (congrFun (V_k1 m c) _).trans ?_
  refine shapeCast_apply (s := S4096x1) (t := S1x4096) _ _ _ (ix2 n (0 : Fin 1)) ?_
  rw [Shape.rowMajor_val_two (d := ![4096, 1]), Shape.rowMajor_val_two (d := ![1, 4096])]
  show n.val * 1 + 0 = (win0_8.index t 0 * 1 + 1 * 0) * 4096 + (win0_8.index t 1 * 4096 + 1 * n.val)
  rw [hi.1, hi.2]; omega

/-! ## The projected features and the coefficient arrays -/

/-- The projected features of scale 0 are the specification's weighted features. -/
theorem feat0_apply (d : Fin 64) (n : Fin 4096) :
    feat0 (F := Ideal) m c (ix2 d n)
      = Cert.Wavelet.featT (m ((c.tc : Thread nD τ).loc main_arg5)) (m ((c.tc : Thread nD τ).loc main_arg0)) d n := by
  unfold feat0 Cert.Wavelet.featT
  refine (pay1_apply _ _ d n).trans ?_
  exact Finset.sum_congr rfl fun j _ => congrArg₂ (· * ·) (wBlk0_apply m c _ j d) (xBlk_apply m c _ n j)

/-- The 256 kernel entries analysis point `t` reads are rows 256·t … of scale 0's kernel column. -/
theorem kernelCols0_apply (t : Fin cfg0.N) (h : analysisPt (grid0.coords t)) (ht : t.val < 16) (r : Fin 256)
    (hr : 256 * t.val + r.val < 4096) :
    kernelCols (grid0.coords t) h (kRow0 (F := Ideal) m c t) (ix2 (0 : Fin 1) r)
      = (m ((c.tc : Thread nD τ).loc main_arg7)) (ix2 (n0 := 4096) (n1 := 1) ⟨256 * t.val + r.val, hr⟩ (0 : Fin 1)) := by
  have hc := kernelCol_eq t
  have h0 : k0_off1 (grid0.coords t) (0 : Fin 2) = 0 := rfl
  refine Eq.trans ?_ (kRow0_apply m c t ⟨256 * t.val + r.val, hr⟩)
  refine congrArg (kRow0 (F := Ideal) m c t) (funext fun a => Fin.ext ?_)
  match a with
  | ⟨0, _⟩ => show k0_off1 (grid0.coords t) 0 + 1 * 0 = 0; rw [h0]
  | ⟨1, _⟩ => show k0_off1 (grid0.coords t) 1 + 1 * r.val = 256 * t.val + r.val; rw [hc]; omega

/-- Scale 0's complete coefficient array is the specification's scaled coefficients. -/
theorem coef0_apply (d : Fin 64) (n : Fin 4096) :
    coef0 (F := Ideal) m c (ix2 d n)
      = Cert.Wavelet.scaledT (m ((c.tc : Thread nD τ).loc main_arg7)) (m ((c.tc : Thread nD τ).loc main_arg1)) (m ((c.tc : Thread nD τ).loc main_arg5)) (m ((c.tc : Thread nD τ).loc main_arg0)) d n := by
  have hn : n.val < 4096 := n.isLt
  have hq : n.val / 256 < 32 := by omega
  have hq16 : (pt (n.val / 256) hq).val < 16 := by show n.val / 256 < 16; omega
  have hm : n.val % 256 < 256 := Nat.mod_lt _ (by norm_num)
  have hrow : 256 * (pt (n.val / 256) hq).val + (⟨n.val % 256, hm⟩ : Fin 256).val < 4096 := by
    show 256 * (n.val / 256) + n.val % 256 < 4096; omega
  have hrow' : (⟨256 * (pt (n.val / 256) hq).val + (⟨n.val % 256, hm⟩ : Fin 256).val, hrow⟩ : Fin 4096) = n :=
    Fin.ext (by show 256 * (n.val / 256) + n.val % 256 = n.val; omega)
  have ha : analysisPt (grid0.coords (pt (n.val / 256) hq)) := (analysisPt_iff _).mpr hq16
  rw [coef0_slice m c (pt (n.val / 256) hq) ha (ix2 d n) (ix2 d ⟨n.val % 256, hm⟩) rfl
    (by show n.val = 256 * (n.val / 256) + n.val % 256; omega)]
  unfold coefSlice0 Cert.Wavelet.scaledT Cert.Wavelet.coefT
  refine (pay3_apply _ _ _ d ⟨n.val % 256, hm⟩).trans ?_
  refine congrArg₂ (· * ·) ?_ (Finset.sum_congr rfl fun n' _ => congrArg₂ (· * ·) (feat0_apply m c d n') ?_)
  · refine (kernelCols0_apply m c _ ha hq16 ⟨n.val % 256, hm⟩ hrow).trans ?_
    rw [hrow']
  · refine (pinvBlk0_apply m c _ hq16 ⟨n.val % 256, hm⟩ n' hrow).trans ?_
    rw [hrow']

/-- The projected features of scale 1 are the specification's weighted features. -/
theorem feat1_apply (d : Fin 64) (n : Fin 4096) :
    feat1 (F := Ideal) m c (ix2 d n)
      = Cert.Wavelet.featT (m ((c.tc : Thread nD τ).loc main_arg6)) (m ((c.tc : Thread nD τ).loc main_arg0)) d n := by
  unfold feat1 Cert.Wavelet.featT
  refine (pay2_apply _ _ d n).trans ?_
  exact Finset.sum_congr rfl fun j _ => congrArg₂ (· * ·) (wBlk1_apply m c _ j d) (xBlk_apply m c _ n j)

/-- The 256 kernel entries analysis point `t` reads are rows 256·t … of scale 1's kernel column. -/
theorem kernelCols1_apply (t : Fin cfg0.N) (h : analysisPt (grid0.coords t)) (ht : t.val < 16) (r : Fin 256)
    (hr : 256 * t.val + r.val < 4096) :
    kernelCols (grid0.coords t) h (kRow1 (F := Ideal) m c t) (ix2 (0 : Fin 1) r)
      = (m ((c.tc : Thread nD τ).loc main_arg8)) (ix2 (n0 := 4096) (n1 := 1) ⟨256 * t.val + r.val, hr⟩ (0 : Fin 1)) := by
  have hc := kernelCol_eq t
  have h0 : k0_off1 (grid0.coords t) (0 : Fin 2) = 0 := rfl
  refine Eq.trans ?_ (kRow1_apply m c t ⟨256 * t.val + r.val, hr⟩)
  refine congrArg (kRow1 (F := Ideal) m c t) (funext fun a => Fin.ext ?_)
  match a with
  | ⟨0, _⟩ => show k0_off1 (grid0.coords t) 0 + 1 * 0 = 0; rw [h0]
  | ⟨1, _⟩ => show k0_off1 (grid0.coords t) 1 + 1 * r.val = 256 * t.val + r.val; rw [hc]; omega

/-- Scale 1's complete coefficient array is the specification's scaled coefficients. -/
theorem coef1_apply (d : Fin 64) (n : Fin 4096) :
    coef1 (F := Ideal) m c (ix2 d n)
      = Cert.Wavelet.scaledT (m ((c.tc : Thread nD τ).loc main_arg8)) (m ((c.tc : Thread nD τ).loc main_arg3)) (m ((c.tc : Thread nD τ).loc main_arg6)) (m ((c.tc : Thread nD τ).loc main_arg0)) d n := by
  have hn : n.val < 4096 := n.isLt
  have hq : n.val / 256 < 32 := by omega
  have hq16 : (pt (n.val / 256) hq).val < 16 := by show n.val / 256 < 16; omega
  have hm : n.val % 256 < 256 := Nat.mod_lt _ (by norm_num)
  have hrow : 256 * (pt (n.val / 256) hq).val + (⟨n.val % 256, hm⟩ : Fin 256).val < 4096 := by
    show 256 * (n.val / 256) + n.val % 256 < 4096; omega
  have hrow' : (⟨256 * (pt (n.val / 256) hq).val + (⟨n.val % 256, hm⟩ : Fin 256).val, hrow⟩ : Fin 4096) = n :=
    Fin.ext (by show 256 * (n.val / 256) + n.val % 256 = n.val; omega)
  have ha : analysisPt (grid0.coords (pt (n.val / 256) hq)) := (analysisPt_iff _).mpr hq16
  rw [coef1_slice m c (pt (n.val / 256) hq) ha (ix2 d n) (ix2 d ⟨n.val % 256, hm⟩) rfl
    (by show n.val = 256 * (n.val / 256) + n.val % 256; omega)]
  unfold coefSlice1 Cert.Wavelet.scaledT Cert.Wavelet.coefT
  refine (pay4_apply _ _ _ d ⟨n.val % 256, hm⟩).trans ?_
  refine congrArg₂ (· * ·) ?_ (Finset.sum_congr rfl fun n' _ => congrArg₂ (· * ·) (feat1_apply m c d n') ?_)
  · refine (kernelCols1_apply m c _ ha hq16 ⟨n.val % 256, hm⟩ hrow).trans ?_
    rw [hrow']
  · refine (pinvBlk1_apply m c _ hq16 ⟨n.val % 256, hm⟩ n' hrow).trans ?_
    rw [hrow']

end Cert.KernelIdeal.Wavelet

end
-- ==== Proof.KernelValue.lean ====
/-
  The result array after the launch is the specification's result.

  A synthesis point stores two slabs into its block of the result window: slab 0 is scale 0's 256 × 64 block of positive
  parts, slab 1 scale 1's. Each entry is the positive part of the sum over the nodes of a complete scaled coefficient times
  an entry of the point's block of a synthesis basis, which is the specification's synthesis at row 256·(t − 16) + r. The
  sixteen synthesis points' blocks tile the rows of the result array, so the array ends holding the specification's result.
-/
import proofs.«109995_g53661321397056_cont_9to1_m_18_12_alg».proof.Proof.Data
import proofs.«109995_g53661321397056_cont_9to1_m_18_12_alg».proof.Proof.CarriedValues
import proofs.«109995_g53661321397056_cont_9to1_m_18_12_alg».proof.Proof.PayloadAt
import proofs.«109995_g53661321397056_cont_9to1_m_18_12_alg».proof.Proof.WaveletSpec

set_option maxRecDepth 16384

noncomputable section

namespace Cert.KernelIdeal.Wavelet

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (c : Dev nD)

/-- The specification's result of the nine argument arrays as the launch finds them. -/
abbrev spec : (⟨3, ![2, 4096, 64]⟩ : Shape).Idx → EReal :=
  Cert.Wavelet.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-! ## The two slabs of the result window's block -/

/-- Slab 1 of the block, at its own index, is that index under a leading 1. -/
theorem slab1_emb (r : Fin 256) (d : Fin 64) :
    (Rect.unit (s := S2x256x64) ![1, 0, 0] S1x256x64.size inb_S2x256x64_S1x256x64_1_0_0).emb (ix3 (0 : Fin 1) r d) = ix3 (1 : Fin 2) r d := by
  funext a; apply Fin.ext; rw [Rect.emb_apply]
  match a with
  | ⟨0, _⟩ => rfl
  | ⟨1, _⟩ => show 0 + 1 * r.val = r.val; omega
  | ⟨2, _⟩ => show 0 + 1 * d.val = d.val; omega

/-- Slab 0 of the block, at its own index, is that index under a leading 0. -/
theorem slab0_emb (r : Fin 256) (d : Fin 64) :
    (Rect.unit (s := S2x256x64) ![0, 0, 0] S1x256x64.size inb_S2x256x64_S1x256x64_0_0_0).emb (ix3 (0 : Fin 1) r d) = ix3 (0 : Fin 2) r d := by
  funext a; apply Fin.ext; rw [Rect.emb_apply]
  match a with
  | ⟨0, _⟩ => rfl
  | ⟨1, _⟩ => show 0 + 1 * r.val = r.val; omega
  | ⟨2, _⟩ => show 0 + 1 * d.val = d.val; omega

/-- An index under a leading 0 is not in slab 1. -/
theorem slab1_not_mem (r : Fin 256) (d : Fin 64) :
    ix3 (0 : Fin 2) r d ∉ (Rect.unit (s := S2x256x64) ![1, 0, 0] S1x256x64.size inb_S2x256x64_S1x256x64_1_0_0).set := by
  rw [Rect.mem_set_unit]
  intro h
  have h0 : (1 : ℕ) ≤ 0 := (h (0 : Fin 3)).1
  exact absurd h0 (by decide)

/-- A list of stores read under its last store's rectangle, the index named from outside. -/
theorem canon_at_emb (R : Rect S2x256x64) (w : R.shape.Idx → Elt Ideal .f32) (L : List (View.Piece (Elt Ideal) S2x256x64 .f32))
    (x : R.shape.Idx) (y : S2x256x64.Idx) (h : R.emb x = y) :
    View.canon ((⟨R, w⟩ : View.Piece (Elt Ideal) S2x256x64 .f32) :: L) y = w x := by
  subst h; exact View.canon_cons_emb R w L x

/-- The block at an index under a leading 1 is the later store's payload. -/
theorem synthPieces_at1 (c0 c1 : Vec Ideal S64x4096 .f32) (p0 p1 : Vec Ideal S256x4096 .f32) (r : Fin 256) (d : Fin 64) :
    View.canon (synthPieces c0 c1 p0 p1) (ix3 (1 : Fin 2) r d) = k0_pay6 (F := Ideal) c1 p1 (ix3 (0 : Fin 1) r d) := by
  unfold synthPieces
  exact canon_at_emb (Rect.unit (s := S2x256x64) ![1, 0, 0] S1x256x64.size inb_S2x256x64_S1x256x64_1_0_0) (k0_pay6 (F := Ideal) c1 p1)
    [(⟨(Rect.unit (s := S2x256x64) ![0, 0, 0] S1x256x64.size inb_S2x256x64_S1x256x64_0_0_0), k0_pay5 (F := Ideal) c0 p0⟩ : View.Piece (Elt Ideal) S2x256x64 .f32)] (ix3 (0 : Fin 1) r d) (ix3 (1 : Fin 2) r d) (slab1_emb r d)

/-- The block at an index under a leading 0 is the earlier store's payload. -/
theorem synthPieces_at0 (c0 c1 : Vec Ideal S64x4096 .f32) (p0 p1 : Vec Ideal S256x4096 .f32) (r : Fin 256) (d : Fin 64) :
    View.canon (synthPieces c0 c1 p0 p1) (ix3 (0 : Fin 2) r d) = k0_pay5 (F := Ideal) c0 p0 (ix3 (0 : Fin 1) r d) := by
  unfold synthPieces
  refine (View.canon_cons_of_not_mem (Val := Elt Ideal) (s := S2x256x64) (e := .f32)
    (⟨(Rect.unit (s := S2x256x64) ![1, 0, 0] S1x256x64.size inb_S2x256x64_S1x256x64_1_0_0), k0_pay6 (F := Ideal) c1 p1⟩ : View.Piece (Elt Ideal) S2x256x64 .f32)
    [(⟨(Rect.unit (s := S2x256x64) ![0, 0, 0] S1x256x64.size inb_S2x256x64_S1x256x64_0_0_0), k0_pay5 (F := Ideal) c0 p0⟩ : View.Piece (Elt Ideal) S2x256x64 .f32)] (slab1_not_mem r d)).trans ?_
  exact canon_at_emb (Rect.unit (s := S2x256x64) ![0, 0, 0] S1x256x64.size inb_S2x256x64_S1x256x64_0_0_0) (k0_pay5 (F := Ideal) c0 p0) [] (ix3 (0 : Fin 1) r d) (ix3 (0 : Fin 2) r d) (slab0_emb r d)

/-! ## A synthesis point's block, element by element -/

/-- What synthesis point t leaves in the result window, element by element: rows 256·(t−16) … of both scales of the result. -/
theorem outBlk_apply (t : Fin cfg0.N) (ht : 16 ≤ t.val) (s : Fin 2) (r : Fin 256) (d : Fin 64) (hr : 256 * (t.val - 16) + r.val < 4096) :
    outBlk (F := Ideal) m c t (ix3 s r d) = spec m c (ix3 s ⟨256 * (t.val - 16) + r.val, hr⟩ d) := by
  unfold outBlk
  match s with
  | ⟨0, _⟩ =>
    refine (synthPieces_at0 (coef0 (F := Ideal) m c) (coef1 (F := Ideal) m c) (phiBlk0 (F := Ideal) m c t) (phiBlk1 (F := Ideal) m c t) r d).trans ?_
    refine (pay5_apply (coef0 (F := Ideal) m c) (phiBlk0 (F := Ideal) m c t) r d).trans ?_
    refine Eq.trans ?_ (if_pos rfl).symm
    refine congrArg₂ max ?_ rfl
    unfold Cert.Wavelet.synthT
    refine Finset.sum_congr rfl fun n _ => ?_
    exact congrArg₂ (· * ·) (coef0_apply m c d n) (phiBlk0_apply m c t ht r n hr)
  | ⟨1, _⟩ =>
    refine (synthPieces_at1 (coef0 (F := Ideal) m c) (coef1 (F := Ideal) m c) (phiBlk0 (F := Ideal) m c t) (phiBlk1 (F := Ideal) m c t) r d).trans ?_
    refine (pay6_apply (coef1 (F := Ideal) m c) (phiBlk1 (F := Ideal) m c t) r d).trans ?_
    refine Eq.trans ?_ (if_neg fun h => Nat.one_ne_zero h).symm
    refine congrArg₂ max ?_ rfl
    unfold Cert.Wavelet.synthT
    refine Finset.sum_congr rfl fun n _ => ?_
    exact congrArg₂ (· * ·) (coef1_apply m c d n) (phiBlk1_apply m c t ht r n hr)

/-! ## From the synthesis points' blocks to the result array -/

/-- The result window's block index at a synthesis point: row block t − 16, the other two axes whole. -/
theorem idx9 : ∀ t : Fin cfg0.N, 16 ≤ t.val → win0_9.index t (0 : Fin 3) = 0 ∧ win0_9.index t (1 : Fin 3) = t.val - 16 ∧ win0_9.index t (2 : Fin 3) = 0 :=
  (by decide +kernel : ∀ t : Fin grid0.N, 16 ≤ t.val → win0_9.index t (0 : Fin 3) = 0 ∧ win0_9.index t (1 : Fin 3) = t.val - 16 ∧ win0_9.index t (2 : Fin 3) = 0)

/-- Where an element of a synthesis point's block sits in the result array. -/
theorem blk9_emb (t : Fin cfg0.N) (ht : 16 ≤ t.val) (s : Fin 2) (r : Fin 256) (d : Fin 64) (hr : 256 * (t.val - 16) + r.val < 4096) :
    ((cfg0.win 9).blk t).view.emb (ix3 s r d) = ix3 s ⟨256 * (t.val - 16) + r.val, hr⟩ d := by
  obtain ⟨e0, e1, e2⟩ := idx9 t ht
  funext a; apply Fin.ext
  match a with
  | ⟨0, _⟩ => show win0_9.index t (0 : Fin 3) * 2 + 1 * s.val = s.val; rw [e0]; omega
  | ⟨1, _⟩ => show win0_9.index t (1 : Fin 3) * 256 + 1 * r.val = 256 * (t.val - 16) + r.val; rw [e1]; omega
  | ⟨2, _⟩ => show win0_9.index t (2 : Fin 3) * 64 + 1 * d.val = d.val; rw [e2]; omega

/-- What a flushing point writes back is its block of the specification's result. -/
theorem flushed9_eq (t : Fin cfg0.N) (hf : (cfg0.win 9).flush t = true) :
    (dats (F := Ideal) m 0 c).flushed 9 t = ((cfg0.win 9).blk t).view.read (Elt Ideal) (spec m c) := by
  have ht : 16 ≤ t.val := by
    by_contra h
    have hk := keepOut_analysis t (by omega)
    rw [hk] at hf
    exact Bool.false_ne_true hf
  have hN : t.val < 32 := lt_of_lt_of_eq t.isLt gridN
  show (cfg0.win 9).cut (grid0.coords t) ((dats (F := Ideal) m 0 c).after 9 t) = _
  rw [after9]
  refine funext fun (y : S2x256x64.Idx) => ?_
  obtain ⟨s, r, d, rfl⟩ : ∃ (s : Fin 2) (r : Fin 256) (d : Fin 64), y = ix3 s r d := ⟨y 0, y 1, y 2, eq_ix3 y⟩
  have hr : 256 * (t.val - 16) + r.val < 4096 := by have := r.isLt; omega
  refine (outBlk_apply m c t ht s r d hr).trans ?_
  show spec m c (ix3 s ⟨256 * (t.val - 16) + r.val, hr⟩ d) = spec m c (((cfg0.win 9).blk t).view.emb (ix3 s r d))
  rw [blk9_emb t ht s r d hr]

/-- Every index of the result array lies in the block of the synthesis point of its row block. -/
theorem cover9 (i : S2x4096x64.Idx) :
    ∃ t : Fin cfg0.N, (cfg0.win 9).flush t = true ∧ i ∈ ((cfg0.win 9).blk t).view.set := by
  have h0 : (i 0).val < 2 := (i 0).isLt
  have h1 : (i 1).val < 4096 := (i 1).isLt
  have h2 : (i 2).val < 64 := (i 2).isLt
  have hq : 16 + (i 1).val / 256 < 32 := by omega
  have hv : (pt (16 + (i 1).val / 256) hq).val = 16 + (i 1).val / 256 := rfl
  obtain ⟨e0, e1, e2⟩ := idx9 (pt (16 + (i 1).val / 256) hq) (by rw [hv]; omega)
  refine ⟨pt (16 + (i 1).val / 256) hq, flushOut_synthesis _ (by rw [hv]; omega), ?_⟩
  show i ∈ ((View.whole main_v2).slice (win0_9.rect (pt (16 + (i 1).val / 256) hq))).set
  rw [View.set_slice_whole, Rect.mem_set_unit]
  intro a
  match a with
  | ⟨0, _⟩ =>
    show win0_9.index (pt (16 + (i 1).val / 256) hq) (0 : Fin 3) * 2 ≤ (i 0).val ∧ (i 0).val < win0_9.index (pt (16 + (i 1).val / 256) hq) (0 : Fin 3) * 2 + 2
    rw [e0]; omega
  | ⟨1, _⟩ =>
    show win0_9.index (pt (16 + (i 1).val / 256) hq) (1 : Fin 3) * 256 ≤ (i 1).val ∧ (i 1).val < win0_9.index (pt (16 + (i 1).val / 256) hq) (1 : Fin 3) * 256 + 256
    rw [e1, hv]; omega
  | ⟨2, _⟩ =>
    show win0_9.index (pt (16 + (i 1).val / 256) hq) (2 : Fin 3) * 64 ≤ (i 2).val ∧ (i 2).val < win0_9.index (pt (16 + (i 1).val / 256) hq) (2 : Fin 3) * 64 + 64
    rw [e2]; omega

/-- The result array after the run. -/
theorem final : (dats (F := Ideal) m 0 c).arrAt 9 cfg0.N = spec m c :=
  (dats (F := Ideal) m 0 c).arrAt_eq_of_cover 9 (spec m c) (flushed9_eq m c) cover9

end Cert.KernelIdeal.Wavelet

end
-- ==== Proof.KernelRun.lean ====
/-
  The idealized kernel's run with its result array named: every execution ends with the result array holding the
  specification's result of the argument arrays, which end unchanged.
-/
import proofs.«109995_g53661321397056_cont_9to1_m_18_12_alg».proof.Proof.Body
import proofs.«109995_g53661321397056_cont_9to1_m_18_12_alg».proof.Proof.KernelValue

set_option maxRecDepth 16384

noncomputable section

namespace Cert.KernelIdeal.Wavelet

open Cert.KernelIdeal Cert.KernelIdeal.Gen Idealize.ShloMosaic Idealize.ShloMosaic.TcCoe Idealize.SL.Sem
open Idealize.ShloMosaic.Pipeline (Dat)

/-- The result array is read off the run's post through the result window's final contents; each argument array through its own
    window (or, for the two diagonal kernels, which the launch reads through reshaped copies, as a buffer no window stages). -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main (F := Ideal) m ρ)

end Cert.KernelIdeal.Wavelet

end
-- ==== Proof.RefSide.lean ====
import proofs.«109995_g53661321397056_cont_9to1_m_18_12_alg».proof.Proof.Gen.ReferenceIdeal.Run
import proofs.«109995_g53661321397056_cont_9to1_m_18_12_alg».proof.Proof.Gen.ReferenceIdeal.Read
import proofs.«109995_g53661321397056_cont_9to1_m_18_12_alg».proof.Proof.WaveletSpec

/-
  The row-major reference program computes the specification Cert.Wavelet.result.

  The reference computes, per scale, x·W as Σ_j x[n,j]·W[j,d], then pinv·(x·W) as Σ_n' pinv[n,n']·(…), scales row n
  by k[n,0], applies phi as Σ_n phi[r,n]·(…), lays the two scales end to end along a new leading axis and takes the
  maximum with zero. The specification has the same sums in the same order with the two factors of every product
  exchanged, so the two agree by commutativity of the product of extended reals under each sum.
-/

set_option maxRecDepth 16384

noncomputable section

open scoped BigOperators

namespace Cert.ReferenceIdeal.Wavelet

open Cert.ReferenceIdeal Cert.ReferenceIdeal.Gen Cert.ReferenceIdeal.Read Idealize.ShloMosaic Idealize.ShloMosaic.TcCoe Idealize.SL.Sem Idealize.ShloMosaic.ValueIdx

/-- Two rank-2 indices with the same two coordinates are equal. -/
local macro "idx2_rfl" : tactic => `(tactic| (funext a; match a with | ⟨0, _⟩ => rfl | ⟨1, _⟩ => rfl))

/-! ## The operand indices of the contractions and broadcasts, by coordinates -/

private theorem lidx0 (n : Fin 4096) (d k : Fin 64) : lidx_main_v0 (ix2 n d) k = ix2 n k := by idx2_rfl
private theorem ridx0 (n : Fin 4096) (d k : Fin 64) : ridx_main_v0 (ix2 n d) k = ix2 k d := by idx2_rfl
private theorem lidx1 (r : Fin 4096) (d : Fin 64) (k : Fin 4096) : lidx_main_v1 (ix2 r d) k = ix2 r k := by idx2_rfl
private theorem ridx1 (r : Fin 4096) (d : Fin 64) (k : Fin 4096) : ridx_main_v1 (ix2 r d) k = ix2 k d := by idx2_rfl
private theorem idx2 (r : Fin 4096) (d : Fin 64) : idx_main_v2 (ix2 r d) = ix2 r (0 : Fin 1) := by idx2_rfl
private theorem lidx4 (r : Fin 4096) (d : Fin 64) (k : Fin 4096) : lidx_main_v4 (ix2 r d) k = ix2 r k := by idx2_rfl
private theorem ridx4 (r : Fin 4096) (d : Fin 64) (k : Fin 4096) : ridx_main_v4 (ix2 r d) k = ix2 k d := by idx2_rfl
private theorem lidx5 (n : Fin 4096) (d k : Fin 64) : lidx_main_v5 (ix2 n d) k = ix2 n k := by idx2_rfl
private theorem ridx5 (n : Fin 4096) (d k : Fin 64) : ridx_main_v5 (ix2 n d) k = ix2 k d := by idx2_rfl
private theorem lidx6 (r : Fin 4096) (d : Fin 64) (k : Fin 4096) : lidx_main_v6 (ix2 r d) k = ix2 r k := by idx2_rfl
private theorem ridx6 (r : Fin 4096) (d : Fin 64) (k : Fin 4096) : ridx_main_v6 (ix2 r d) k = ix2 k d := by idx2_rfl
private theorem idx7 (r : Fin 4096) (d : Fin 64) : idx_main_v7 (ix2 r d) = ix2 r (0 : Fin 1) := by idx2_rfl
private theorem lidx9 (r : Fin 4096) (d : Fin 64) (k : Fin 4096) : lidx_main_v9 (ix2 r d) k = ix2 r k := by idx2_rfl
private theorem ridx9 (r : Fin 4096) (d : Fin 64) (k : Fin 4096) : ridx_main_v9 (ix2 r d) k = ix2 k d := by idx2_rfl
private theorem idx10 (s : Fin 1) (r : Fin 4096) (d : Fin 64) : idx_main_v10 (ix3 s r d) = ix2 r d := by idx2_rfl
private theorem idx11 (s : Fin 1) (r : Fin 4096) (d : Fin 64) : idx_main_v11 (ix3 s r d) = ix2 r d := by idx2_rfl

/-! ## The first scale, stage by stage -/

/-- x·W at node n, feature d: the specification's weighted feature. -/
theorem feat0 (x : (⟨S4096x64, .f32⟩ : BufTy).Contents (Elt Ideal)) (w : (⟨S64x64, .f32⟩ : BufTy).Contents (Elt Ideal)) (n : Fin 4096) (d : Fin 64) :
    val_main_v0 (F := Ideal) x w (ix2 n d) = Cert.Wavelet.featT w x d n := by
  rw [val_main_v0_apply]
  unfold Cert.Wavelet.featT
  refine Finset.sum_congr rfl fun k _ => ?_
  rw [lidx0, ridx0]
  exact mul_comm _ _

/-- The analysis product at coefficient r, feature d: the specification's wavelet coefficient. -/
theorem coef0 (x : (⟨S4096x64, .f32⟩ : BufTy).Contents (Elt Ideal)) (pinv : (⟨S4096x4096, .f32⟩ : BufTy).Contents (Elt Ideal)) (w : (⟨S64x64, .f32⟩ : BufTy).Contents (Elt Ideal)) (r : Fin 4096) (d : Fin 64) :
    val_main_v1 (F := Ideal) x pinv w (ix2 r d) = Cert.Wavelet.coefT pinv w x d r := by
  rw [val_main_v1_apply]
  unfold Cert.Wavelet.coefT
  refine Finset.sum_congr rfl fun k _ => ?_
  rw [lidx1, ridx1, feat0]
  exact mul_comm _ _

/-- The coefficient scaled by the diagonal kernel's entry of its row. -/
theorem scaled0 (x : (⟨S4096x64, .f32⟩ : BufTy).Contents (Elt Ideal)) (pinv : (⟨S4096x4096, .f32⟩ : BufTy).Contents (Elt Ideal)) (w : (⟨S64x64, .f32⟩ : BufTy).Contents (Elt Ideal)) (k : (⟨S4096x1, .f32⟩ : BufTy).Contents (Elt Ideal)) (r : Fin 4096) (d : Fin 64) :
    val_main_v3 (F := Ideal) x pinv w k (ix2 r d) = Cert.Wavelet.scaledT k pinv w x d r := by
  rw [val_main_v3_apply, val_main_v2_apply, coef0, idx2, Ideal.mulf_def]
  rfl

/-- The synthesis product at node r, feature d: the specification's synthesis. -/
theorem synth0 (x : (⟨S4096x64, .f32⟩ : BufTy).Contents (Elt Ideal)) (pinv phi : (⟨S4096x4096, .f32⟩ : BufTy).Contents (Elt Ideal)) (w : (⟨S64x64, .f32⟩ : BufTy).Contents (Elt Ideal)) (k : (⟨S4096x1, .f32⟩ : BufTy).Contents (Elt Ideal)) (r : Fin 4096) (d : Fin 64) :
    val_main_v4 (F := Ideal) x pinv phi w k (ix2 r d) = Cert.Wavelet.synthT phi k pinv w x d r := by
  rw [val_main_v4_apply]
  unfold Cert.Wavelet.synthT
  refine Finset.sum_congr rfl fun n _ => ?_
  rw [lidx4, ridx4, scaled0]
  exact mul_comm _ _

/-! ## The second scale, stage by stage -/

/-- x·W at node n, feature d: the specification's weighted feature. -/
theorem feat1 (x : (⟨S4096x64, .f32⟩ : BufTy).Contents (Elt Ideal)) (w : (⟨S64x64, .f32⟩ : BufTy).Contents (Elt Ideal)) (n : Fin 4096) (d : Fin 64) :
    val_main_v5 (F := Ideal) x w (ix2 n d) = Cert.Wavelet.featT w x d n := by
  rw [val_main_v5_apply]
  unfold Cert.Wavelet.featT
  refine Finset.sum_congr rfl fun k _ => ?_
  rw [lidx5, ridx5]
  exact mul_comm _ _

/-- The analysis product at coefficient r, feature d: the specification's wavelet coefficient. -/
theorem coef1 (x : (⟨S4096x64, .f32⟩ : BufTy).Contents (Elt Ideal)) (pinv : (⟨S4096x4096, .f32⟩ : BufTy).Contents (Elt Ideal)) (w : (⟨S64x64, .f32⟩ : BufTy).Contents (Elt Ideal)) (r : Fin 4096) (d : Fin 64) :
    val_main_v6 (F := Ideal) x pinv w (ix2 r d) = Cert.Wavelet.coefT pinv w x d r := by
  rw [val_main_v6_apply]
  unfold Cert.Wavelet.coefT
  refine Finset.sum_congr rfl fun k _ => ?_
  rw [lidx6, ridx6, feat1]
  exact mul_comm _ _

/-- The coefficient scaled by the diagonal kernel's entry of its row. -/
theorem scaled1 (x : (⟨S4096x64, .f32⟩ : BufTy).Contents (Elt Ideal)) (pinv : (⟨S4096x4096, .f32⟩ : BufTy).Contents (Elt Ideal)) (w : (⟨S64x64, .f32⟩ : BufTy).Contents (Elt Ideal)) (k : (⟨S4096x1, .f32⟩ : BufTy).Contents (Elt Ideal)) (r : Fin 4096) (d : Fin 64) :
    val_main_v8 (F := Ideal) x pinv w k (ix2 r d) = Cert.Wavelet.scaledT k pinv w x d r := by
  rw [val_main_v8_apply, val_main_v7_apply, coef1, idx7, Ideal.mulf_def]
  rfl

/-- The synthesis product at node r, feature d: the specification's synthesis. -/
theorem synth1 (x : (⟨S4096x64, .f32⟩ : BufTy).Contents (Elt Ideal)) (pinv phi : (⟨S4096x4096, .f32⟩ : BufTy).Contents (Elt Ideal)) (w : (⟨S64x64, .f32⟩ : BufTy).Contents (Elt Ideal)) (k : (⟨S4096x1, .f32⟩ : BufTy).Contents (Elt Ideal)) (r : Fin 4096) (d : Fin 64) :
    val_main_v9 (F := Ideal) x pinv phi w k (ix2 r d) = Cert.Wavelet.synthT phi k pinv w x d r := by
  rw [val_main_v9_apply]
  unfold Cert.Wavelet.synthT
  refine Finset.sum_congr rfl fun n _ => ?_
  rw [lidx9, ridx9, scaled1]
  exact mul_comm _ _

/-! ## The two scales laid end to end, and the positive part -/

/-- On the leading coordinate 0 the stacked array reads the first scale's synthesis. -/
theorem stack0 (x0 : (⟨S4096x64, .f32⟩ : BufTy).Contents (Elt Ideal)) (x1 x2 x3 x4 : (⟨S4096x4096, .f32⟩ : BufTy).Contents (Elt Ideal)) (x5 x6 : (⟨S64x64, .f32⟩ : BufTy).Contents (Elt Ideal)) (x7 x8 : (⟨S4096x1, .f32⟩ : BufTy).Contents (Elt Ideal)) (r : Fin 4096) (d : Fin 64) :
    val_main_v12 (F := Ideal) x0 x1 x2 x3 x4 x5 x6 x7 x8 (ix3 (0 : Fin 2) r d) = val_main_v4 (F := Ideal) x0 x1 x2 x5 x7 (ix2 r d) := by
  unfold val_main_v12
  refine (concatenate_pair_apply_left (0 : Fin S2x4096x64.rank) _ _ concatenates_S1x4096x64_S1x4096x64_S2x4096x64_d0
    (ix3 (0 : Fin 2) r d) rfl (ix3 (0 : Fin 1) r d) (fun b => ?_)).trans ?_
  · match b with
    | ⟨0, _⟩ => rfl
    | ⟨1, _⟩ => rfl
    | ⟨2, _⟩ => rfl
  · rw [val_main_v10_apply, idx10]

/-- On the leading coordinate 1 the stacked array reads the second scale's synthesis. -/
theorem stack1 (x0 : (⟨S4096x64, .f32⟩ : BufTy).Contents (Elt Ideal)) (x1 x2 x3 x4 : (⟨S4096x4096, .f32⟩ : BufTy).Contents (Elt Ideal)) (x5 x6 : (⟨S64x64, .f32⟩ : BufTy).Contents (Elt Ideal)) (x7 x8 : (⟨S4096x1, .f32⟩ : BufTy).Contents (Elt Ideal)) (r : Fin 4096) (d : Fin 64) :
    val_main_v12 (F := Ideal) x0 x1 x2 x3 x4 x5 x6 x7 x8 (ix3 (1 : Fin 2) r d) = val_main_v9 (F := Ideal) x0 x3 x4 x6 x8 (ix2 r d) := by
  unfold val_main_v12
  refine (concatenate_pair_apply_right (0 : Fin S2x4096x64.rank) _ _ concatenates_S1x4096x64_S1x4096x64_S2x4096x64_d0
    (ix3 (1 : Fin 2) r d) rfl rfl (ix3 (0 : Fin 1) r d) (fun b hb => ?_) rfl).trans ?_
  · match b with
    | ⟨0, _⟩ => exact absurd rfl hb
    | ⟨1, _⟩ => rfl
    | ⟨2, _⟩ => rfl
  · rw [val_main_v11_apply, idx11]

/-- The comparand of the final maximum is zero everywhere. -/
theorem zero_apply (i : S2x4096x64.Idx) : val_main_call0_v0 (F := Ideal) i = 0 := by
  rw [val_main_call0_v0_apply, val_main_call0_cst_apply, Ideal.ofBits_def, Ideal.ofBits_zero_f32]

/-- The result at scale 0. -/
theorem out0 (x0 : (⟨S4096x64, .f32⟩ : BufTy).Contents (Elt Ideal)) (x1 x2 x3 x4 : (⟨S4096x4096, .f32⟩ : BufTy).Contents (Elt Ideal)) (x5 x6 : (⟨S64x64, .f32⟩ : BufTy).Contents (Elt Ideal)) (x7 x8 : (⟨S4096x1, .f32⟩ : BufTy).Contents (Elt Ideal)) (r : Fin 4096) (d : Fin 64) :
    val_main_v13 (F := Ideal) x0 x1 x2 x3 x4 x5 x6 x7 x8 (ix3 (0 : Fin 2) r d)
      = Cert.Wavelet.result x0 x1 x2 x3 x4 x5 x6 x7 x8 (ix3 (0 : Fin 2) r d) := by
  rw [val_main_v13_apply, stack0, synth0, zero_apply, Ideal.maximumf_def]
  exact (if_pos rfl).symm

/-- The result at scale 1. -/
theorem out1 (x0 : (⟨S4096x64, .f32⟩ : BufTy).Contents (Elt Ideal)) (x1 x2 x3 x4 : (⟨S4096x4096, .f32⟩ : BufTy).Contents (Elt Ideal)) (x5 x6 : (⟨S64x64, .f32⟩ : BufTy).Contents (Elt Ideal)) (x7 x8 : (⟨S4096x1, .f32⟩ : BufTy).Contents (Elt Ideal)) (r : Fin 4096) (d : Fin 64) :
    val_main_v13 (F := Ideal) x0 x1 x2 x3 x4 x5 x6 x7 x8 (ix3 (1 : Fin 2) r d)
      = Cert.Wavelet.result x0 x1 x2 x3 x4 x5 x6 x7 x8 (ix3 (1 : Fin 2) r d) := by
  rw [val_main_v13_apply, stack1, synth1, zero_apply, Ideal.maximumf_def]
  exact (if_neg fun h => Nat.one_ne_zero h).symm

/-- The reference's last stage is the specification's result, as arrays. -/
theorem val_eq_result (x0 : (⟨S4096x64, .f32⟩ : BufTy).Contents (Elt Ideal)) (x1 x2 x3 x4 : (⟨S4096x4096, .f32⟩ : BufTy).Contents (Elt Ideal)) (x5 x6 : (⟨S64x64, .f32⟩ : BufTy).Contents (Elt Ideal)) (x7 x8 : (⟨S4096x1, .f32⟩ : BufTy).Contents (Elt Ideal)) :
    val_main_v13 (F := Ideal) x0 x1 x2 x3 x4 x5 x6 x7 x8 = Cert.Wavelet.result x0 x1 x2 x3 x4 x5 x6 x7 x8 := by
  funext j
  obtain ⟨s, r, d, rfl⟩ : ∃ (s : Fin 2) (r : Fin 4096) (d : Fin 64), j = ix3 s r d := ⟨j 0, j 1, j 2, eq_ix3 j⟩
  match s with
  | ⟨0, _⟩ => exact out0 x0 x1 x2 x3 x4 x5 x6 x7 x8 r d
  | ⟨1, _⟩ => exact out1 x0 x1 x2 x3 x4 x5 x6 x7 x8 r d

/-! ## The run -/

/-- the reference's run, its result array named by the specification -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
        = Cert.Wavelet.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val_main_v13_eq (F := Ideal) _ _ _ _ _ _ _ _ _).trans (val_eq_result _ _ _ _ _ _ _ _ _)), (h c).2⟩)
    (Cert.ReferenceIdeal.Value.run (F := Ideal) m ρ)

end Cert.ReferenceIdeal.Wavelet

end
-- ==== Proof.lean ====
/-
  The certificate of the blocked multi-scale wavelet convolution against its row-major reference.

  The blocked program runs one launch over 2 × 16 grid points. Point 0 projects the node features through the two weight
  matrices; the sixteen analysis points each apply one block of 256 rows of the two analysis bases to the projected features,
  scale the coefficients by the diagonal kernels and keep them, feature-major, in two arrays carried across the points; the
  sixteen synthesis points each apply one block of 256 rows of the two synthesis bases to the complete coefficient arrays,
  take the positive part and write both scales' blocks of the result back. Over the extended reals every entry of the result
  is  max ( Σ_n k[n] · ( Σ_n' ( Σ_j W[j,d] · x[n',j] ) · pinv[n,n'] ) · phi[r,n] , 0 ),
  which is what the reference computes with the factors of each product exchanged: the two agree by commutativity of
  multiplication alone, so the precondition (finite inputs) is not used.

  The frames of the two kernel programs are one text, generic in the float instance (Proof/Body.lean for the idealized program,
  laid out again under Proof/Word/ for the word-level program); the reference's frame is its run with the result dropped; the
  idealization rewrote nothing, so `preserves` is trivial; the two runs with the result named are Proof/KernelRun.lean and
  Proof/RefSide.lean, over the specification Proof/WaveletSpec.lean.
-/
import proofs.«109995_g53661321397056_cont_9to1_m_18_12_alg».proof.Defs
import proofs.«109995_g53661321397056_cont_9to1_m_18_12_alg».proof.Proof.Gen.Kernel
import proofs.«109995_g53661321397056_cont_9to1_m_18_12_alg».proof.Proof.Gen.KernelIdeal
import proofs.«109995_g53661321397056_cont_9to1_m_18_12_alg».proof.Proof.Gen.ReferenceIdeal
import proofs.«109995_g53661321397056_cont_9to1_m_18_12_alg».proof.Proof.Gen.Pre_finite_inputs
import proofs.«109995_g53661321397056_cont_9to1_m_18_12_alg».proof.Proof.Gen.ReferenceIdeal.Run
import proofs.«109995_g53661321397056_cont_9to1_m_18_12_alg».proof.Proof.Word.Body
import proofs.«109995_g53661321397056_cont_9to1_m_18_12_alg».proof.Proof.Body
import proofs.«109995_g53661321397056_cont_9to1_m_18_12_alg».proof.Proof.KernelRun
import proofs.«109995_g53661321397056_cont_9to1_m_18_12_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame (F := Bits) m ρ

/-- The idealized kernel runs and leaves its arguments alone. -/
theorem frame_kernelIdeal : Cert.frame_KernelIdeal := fun m ρ _ => Cert.KernelIdeal.Gen.frame (F := Ideal) m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.KernelIdeal.Wavelet.spec m c, Cert.KernelIdeal.Wavelet.kernel_run m ρ, ?_⟩
  refine (θ_run Cert.ReferenceIdeal.defs _ _).mono (fun _ h c => ⟨(h c).1.trans ?_, (h c).2⟩)
    (Cert.ReferenceIdeal.Wavelet.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
